-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1 : Shape := ⟨2, ![8192, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192x1 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S512x512 : Shape := ⟨2, ![512, 512]⟩
abbrev S2048x512 : Shape := ⟨2, ![2048, 512]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩

abbrev nBuf : Space → Nat
  | .hbm => 14
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x1, .i32⟩
  | .hbm, ⟨2, _⟩ => ⟨S8192x512, .bf16⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S1x8192, .i32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x1, .i32⟩
  | .local _ .vmem, ⟨9, _⟩ => ⟨S512x1, .i32⟩
  | .local _ .vmem, ⟨10, _⟩ => ⟨S1x2048, .i32⟩
  | .local _ .vmem, ⟨11, _⟩ => ⟨S1x2048, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  reducesTo_S8192x1_S_d0_1 : S8192x1.ReducesTo [0, 1] S_
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .i32 = 32 ∨ (Rect.block (s := S1x8192) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1, .i32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S512x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_call1_v0 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call2_cst : Ref sig .tc := ⟨.hbm, 39, rfl⟩
abbrev main_call2_v0 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  shapeCasts_S8192x1_S8192 : S8192x1.ShapeCasts S8192
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Sched.lean ====
/-
  The schedule of the pairwise-distance kernel on its 16 × 4 grid (row tile i, column tile j; point t = 4·i + j).
  The body resets its two running extrema (the scratch columns) on the first column tile (j = 0), folds the tile's
  row maximum and row minimum into them on every tile, and on the last column tile (j = 3) stores the per-anchor
  hinge into the output block.  Here: the two branch conditions as congruences of t, where the output window is
  idle and where it is written back, the staging memrefs the body is called with, and the scoped rest
  (the two scratch columns and the generator register) spelt out.
-/
import proofs.«144779_j15917148799620_1_alg».proof.Proof.Gen.Kernel.Launch
import proofs.«144779_j15917148799620_1_alg».proof.Proof.Gen.Kernel.Skeleton
import proofs.«144779_j15917148799620_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- "this is the first column tile": the body's first `scf.if`, from the grid coordinates. -/
abbrev isFirst (i : grid0.Coords) : Prop := (Scalar.cmpi .ne (Scalar.extui (Scalar.cmpi .eq (BitVec.ofNat 32 (i 1).val) 0#32)) 0#32) = 1#1
/-- It holds exactly at the points t ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)

/-- "this is the last column tile": the body's second `scf.if`. -/
abbrev isLast (i : grid0.Coords) : Prop := k0_cond2 i = 1#1
/-- It holds exactly at the points t ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Off the last column tile the output block is not stored: the window is idle there … -/
theorem idle6_of_not_last : ∀ t : Fin cfg0.N, ¬isLast (grid0.coords t) → cfg0.idle 6 (grid0.coords t) = true := by decide +kernel
/-- … and not written back there. -/
theorem noFlush6_of_not_last : ∀ t : Fin cfg0.N, ¬isLast (grid0.coords t) → (cfg0.win 6).flush t = false := by decide +kernel
/-- On the last column tile the output block is stored. -/
theorem live6_of_last : ∀ t : Fin cfg0.N, isLast (grid0.coords t) → cfg0.idle 6 (grid0.coords t) = false := by decide +kernel

/-! ## The memrefs the body is called with -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
/-- The running maximum's column and the running minimum's column: whole scoped buffers of the kernel's own. -/
abbrev scMax : Memref sig .tc .vmem S512x1 .f32 := Memref.whole cc0_scratch0
abbrev scMin : Memref sig .tc .vmem S512x1 .f32 := Memref.whole cc0_scratch1
/-- The views through which the contents of the two columns and of the output block are stated. -/
abbrev vMax : View sig .tc .vmem S512x1 .f32 := scMax.view
abbrev vMin : View sig .tc .vmem S512x1 .f32 := scMin.view
abbrev vOut : View sig .tc .vmem S512x1 .f32 := (Memref.whole cc0_stg6_0 : Memref sig .tc .vmem S512x1 .f32).view

/-- What the launch hands the region beside the windows: the two scratch columns at some contents and the generator
    register at some state. -/
theorem PhiA_eq (c : Dev nD) :
    (Pipeline.ΦA spec0 c : sProp 𝕄)
      = iprop(iprop((∃ d, owns (c : Thread nD τ) scMax fullShare d) ∗ (∃ d, owns (c : Thread nD τ) scMin fullShare d)) ∗ (∃ r, prngReg c r)) := by
  unfold Pipeline.ΦA; rw [scopedRest0_eq]; simp only [scMax, scMin, owns_whole]; try rfl

end Cert.Kernel.Tri

end
-- ==== Proof.K.RunReset.lean ====
/-
  The body on the FIRST column tile of a row (j = 0, which is not the last: the grid has four column tiles).
  Both scratch columns are overwritten whole by the fill constants before anything reads them, then the tile's row
  maximum and row minimum are folded in; the output block is not touched.  The triple is found by running the
  skeleton; the pieces each scratch column ends with are the witness.
-/
import proofs.«144779_j15917148799620_1_alg».proof.Proof.K.Sched

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first-tile run: inputs at their blocks, the output's buffer handed back untouched, the two scratch columns
    at anything before and at their written pieces (`LMax`, `LMin`) after. -/
noncomputable def runReset (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 : Vec F S512x512 .bf16) (x1 : Vec F S2048x512 .bf16) (x2 : Vec F S512x1 .f32) (x3 : Vec F S1x2048 .f32) (x4 : Vec F S512x1 .i32) (x5 : Vec F S1x2048 .i32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Tri

end
-- ==== Proof.K.RunFold.lean ====
/-
  The body on a MIDDLE column tile (j = 1, 2): neither reset nor emission.  The two scratch columns come in at what
  the tile before left (`sMax`, `sMin`) and leave with the tile's row maximum and row minimum folded in; the
  output block is not touched.
-/
import proofs.«144779_j15917148799620_1_alg».proof.Proof.K.RunReset

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The middle-tile run: inputs at their blocks, the output's buffer handed back untouched, the scratch columns at the
    carried contents before and at their written pieces after. -/
noncomputable def runFold (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare sMax ∗ owns (c : Thread nD τ) arg10 fullShare sMin
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Tri

end
-- ==== Proof.K.RunEmit.lean ====
/-
  The body on the LAST column tile of a row (j = 3): the tile's row maximum and row minimum are folded into the
  carried scratch columns, and the per-anchor hinge max(m⁺ + 1 − m⁻, 0) of the folded columns is stored whole into
  the output block.
-/
import proofs.«144779_j15917148799620_1_alg».proof.Proof.K.RunFold

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last-tile run: inputs at their blocks, the output's buffer at anything before and at its written pieces
    (`LOut`) after, the scratch columns at the carried contents before and at their written pieces after. -/
noncomputable def runEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) :
    Σ' (LOut : List (View.Piece (Elt F) S512x1 .f32)) (LMax : List (View.Piece (Elt F) S512x1 .f32)), { LMin : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare sMax ∗ owns (c : Thread nD τ) arg10 fullShare sMin
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Tri

end
-- ==== Proof.K.Points.lean ====
/-
  What the kernel leaves point by point, and the body obligation.
  At point t = 4·i + j the two scratch columns hold the running maximum and running minimum of row tile i over the
  column tiles 0 … j: on the first tile they are reset and the tile folded in, on later tiles the tile is folded into
  what the point before left.  On the last tile the output block is stored from the folded columns.  `colsAt` is
  that recursion; the proof data of the pipeline name it; the body obligation is the three runs, chosen by t mod 4.
  Everything is stated at the contents `V` the region is entered with.
-/
import proofs.«144779_j15917148799620_1_alg».proof.Proof.K.RunEmit

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each run leaves, read back -/

def maxReset (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) : Vec F S512x1 .f32 :=
  vMax.read (Elt F) (vMax.writes (Elt F) vMax.junk (runReset c i arg2 harg2 arg3 harg3 arg4 harg4 arg5 harg5 arg6 harg6 arg7 harg7 arg8 harg8 arg9 harg9 arg10 harg10 hc0 hc1 x0 x1 x2 x3 x4 x5).1)
def minReset (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) : Vec F S512x1 .f32 :=
  vMin.read (Elt F) (vMin.writes (Elt F) vMin.junk (runReset c i arg2 harg2 arg3 harg3 arg4 harg4 arg5 harg5 arg6 harg6 arg7 harg7 arg8 harg8 arg9 harg9 arg10 harg10 hc0 hc1 x0 x1 x2 x3 x4 x5).2.1)
theorem maxReset_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) :
    ∃ pc ∈ (runReset c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (runReset c i arg2 harg2 arg3 harg3 arg4 harg4 arg5 harg5 arg6 harg6 arg7 harg7 arg8 harg8 arg9 harg9 arg10 harg10 hc0 hc1 x0 x1 x2 x3 x4 x5).1 S512x1.size (by sl_kernel_rfl) y
theorem minReset_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) :
    ∃ pc ∈ (runReset c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (runReset c i arg2 harg2 arg3 harg3 arg4 harg4 arg5 harg5 arg6 harg6 arg7 harg7 arg8 harg8 arg9 harg9 arg10 harg10 hc0 hc1 x0 x1 x2 x3 x4 x5).2.1 S512x1.size (by sl_kernel_rfl) y

def maxFold (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMax.read (Elt F) (vMax.writes (Elt F) vMax.junk (runFold c i arg2 harg2 arg3 harg3 arg4 harg4 arg5 harg5 arg6 harg6 arg7 harg7 arg8 harg8 arg9 harg9 arg10 harg10 hc0 hc1 x0 x1 x2 x3 x4 x5 sMax sMin).1)
def minFold (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMin.read (Elt F) (vMin.writes (Elt F) vMin.junk (runFold c i arg2 harg2 arg3 harg3 arg4 harg4 arg5 harg5 arg6 harg6 arg7 harg7 arg8 harg8 arg9 harg9 arg10 harg10 hc0 hc1 x0 x1 x2 x3 x4 x5 sMax sMin).2.1)
theorem maxFold_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runFold c i arg2 harg2 arg3 harg3 arg4 harg4 arg5 harg5 arg6 harg6 arg7 harg7 arg8 harg8 arg9 harg9 arg10 harg10 hc0 hc1 x0 x1 x2 x3 x4 x5 sMax sMin).1, y ∈ pc.1.set :=
  View.cover_of_tiledL (runFold c i arg2 harg2 arg3 harg3 arg4 harg4 arg5 harg5 arg6 harg6 arg7 harg7 arg8 harg8 arg9 harg9 arg10 harg10 hc0 hc1 x0 x1 x2 x3 x4 x5 sMax sMin).1 S512x1.size (by sl_kernel_rfl) y
theorem minFold_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runFold c i arg2 harg2 arg3 harg3 arg4 harg4 arg5 harg5 arg6 harg6 arg7 harg7 arg8 harg8 arg9 harg9 arg10 harg10 hc0 hc1 x0 x1 x2 x3 x4 x5 sMax sMin).2.1, y ∈ pc.1.set :=
  View.cover_of_tiledL (runFold c i arg2 harg2 arg3 harg3 arg4 harg4 arg5 harg5 arg6 harg6 arg7 harg7 arg8 harg8 arg9 harg9 arg10 harg10 hc0 hc1 x0 x1 x2 x3 x4 x5 sMax sMin).2.1 S512x1.size (by sl_kernel_rfl) y

def outEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vOut.read (Elt F) (vOut.writes (Elt F) vOut.junk (runEmit c i arg2 harg2 arg3 harg3 arg4 harg4 arg5 harg5 arg6 harg6 arg7 harg7 arg8 harg8 arg9 harg9 arg10 harg10 hc0 hc1 x0 x1 x2 x3 x4 x5 sMax sMin).1)
def maxEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMax.read (Elt F) (vMax.writes (Elt F) vMax.junk (runEmit c i arg2 harg2 arg3 harg3 arg4 harg4 arg5 harg5 arg6 harg6 arg7 harg7 arg8 harg8 arg9 harg9 arg10 harg10 hc0 hc1 x0 x1 x2 x3 x4 x5 sMax sMin).2.1)
def minEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMin.read (Elt F) (vMin.writes (Elt F) vMin.junk (runEmit c i arg2 harg2 arg3 harg3 arg4 harg4 arg5 harg5 arg6 harg6 arg7 harg7 arg8 harg8 arg9 harg9 arg10 harg10 hc0 hc1 x0 x1 x2 x3 x4 x5 sMax sMin).2.2.1)
theorem outEmit_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runEmit c i arg2 harg2 arg3 harg3 arg4 harg4 arg5 harg5 arg6 harg6 arg7 harg7 arg8 harg8 arg9 harg9 arg10 harg10 hc0 hc1 x0 x1 x2 x3 x4 x5 sMax sMin).1, y ∈ pc.1.set :=
  View.cover_of_tiledL (runEmit c i arg2 harg2 arg3 harg3 arg4 harg4 arg5 harg5 arg6 harg6 arg7 harg7 arg8 harg8 arg9 harg9 arg10 harg10 hc0 hc1 x0 x1 x2 x3 x4 x5 sMax sMin).1 S512x1.size (by sl_kernel_rfl) y
theorem maxEmit_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runEmit c i arg2 harg2 arg3 harg3 arg4 harg4 arg5 harg5 arg6 harg6 arg7 harg7 arg8 harg8 arg9 harg9 arg10 harg10 hc0 hc1 x0 x1 x2 x3 x4 x5 sMax sMin).2.1, y ∈ pc.1.set :=
  View.cover_of_tiledL (runEmit c i arg2 harg2 arg3 harg3 arg4 harg4 arg5 harg5 arg6 harg6 arg7 harg7 arg8 harg8 arg9 harg9 arg10 harg10 hc0 hc1 x0 x1 x2 x3 x4 x5 sMax sMin).2.1 S512x1.size (by sl_kernel_rfl) y
theorem minEmit_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runEmit c i arg2 harg2 arg3 harg3 arg4 harg4 arg5 harg5 arg6 harg6 arg7 harg7 arg8 harg8 arg9 harg9 arg10 harg10 hc0 hc1 x0 x1 x2 x3 x4 x5 sMax sMin).2.2.1, y ∈ pc.1.set :=
  View.cover_of_tiledL (runEmit c i arg2 harg2 arg3 harg3 arg4 harg4 arg5 harg5 arg6 harg6 arg7 harg7 arg8 harg8 arg9 harg9 arg10 harg10 hc0 hc1 x0 x1 x2 x3 x4 x5 sMax sMin).2.2.1 S512x1.size (by sl_kernel_rfl) y

/-! ## The recursion over the points -/

/-- The output block's staging contents where no point stores it: a placeholder nothing consults (the window is idle
    and not written back there). -/
def idleOut : Vec F S512x1 .f32 := vOut.read (Elt F) vOut.junk

/-- One point: from what the point before left in the two scratch columns (`prev`, ignored on a first tile) to what
    this point leaves in the output's buffer and in the two columns, by the tile's position in its row. -/
def stepAt (c : Dev nD) (t : Fin cfg0.N) (prev : Vec F S512x1 .f32 × Vec F S512x1 .f32) :
    Vec F S512x1 .f32 × Vec F S512x1 .f32 × Vec F S512x1 .f32 :=
  if h0 : t.val % 4 = 0 then
    (idleOut, maxReset c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => by have := (isLast_iff t).mp h; omega) (iblk V c 0 t) (iblk V c 1 t) (iblk V c 2 t) (iblk V c 3 t) (iblk V c 4 t) (iblk V c 5 t),
      minReset c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => by have := (isLast_iff t).mp h; omega) (iblk V c 0 t) (iblk V c 1 t) (iblk V c 2 t) (iblk V c 3 t) (iblk V c 4 t) (iblk V c 5 t))
  else if h1 : t.val % 4 = 3 then
    (outEmit c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) prev.1 prev.2,
      maxEmit c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) prev.1 prev.2,
      minEmit c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) prev.1 prev.2)
  else
    (idleOut, maxFold c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) prev.1 prev.2,
      minFold c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) prev.1 prev.2)

/-- What the output's buffer and the two scratch columns hold after the body at position `n`. -/
def colsAt (c : Dev nD) : (n : ℕ) → n < cfg0.N → Vec F S512x1 .f32 × Vec F S512x1 .f32 × Vec F S512x1 .f32
  | 0, hn => stepAt V c ⟨0, hn⟩ (idleOut, idleOut)
  | n + 1, hn => stepAt V c ⟨n + 1, hn⟩ (colsAt c n (Nat.lt_of_succ_lt hn)).2

theorem colsAt_pos (c : Dev nD) (t : Fin cfg0.N) (ht : t.val ≠ 0) :
    colsAt V c t.val t.isLt = stepAt V c t (colsAt V c (t.val - 1) (Nat.lt_of_le_of_lt (Nat.sub_le _ _) t.isLt)).2 := by
  obtain ⟨n, hn⟩ := t
  cases n with
  | zero => exact absurd rfl ht
  | succ n => rfl

theorem stepAt_first (c : Dev nD) (t : Fin cfg0.N) (h0 : t.val % 4 = 0) (prev prev' : Vec F S512x1 .f32 × Vec F S512x1 .f32) :
    stepAt V c t prev = stepAt V c t prev' := by
  unfold stepAt; rw [dif_pos h0, dif_pos h0]

/-- The invariant before position `n`: before the first point the two columns hold anything; afterwards what the
    point before left. -/
def PhiS (c : Dev nD) : (n : ℕ) → n ≤ cfg0.N → sProp 𝕄
  | 0, _ => Pipeline.ΦA spec0 c
  | n + 1, hn => iprop(iprop(owns (c : Thread nD τ) scMax fullShare (colsAt V c n hn).2.1 ∗ owns (c : Thread nD τ) scMin fullShare (colsAt V c n hn).2.2) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (colsAt V c n hn).2.1 ∗ owns (c : Thread nD τ) scMin fullShare (colsAt V c n hn).2.2) ∗ (∃ r, prngReg c r)) := rfl
theorem PhiS_pos (c : Dev nD) (n : ℕ) (h : n ≤ cfg0.N) (hz : n ≠ 0) :
    PhiS V c n h = iprop(iprop(owns (c : Thread nD τ) scMax fullShare (colsAt V c (n - 1) (by omega)).2.1 ∗ owns (c : Thread nD τ) scMin fullShare (colsAt V c (n - 1) (by omega)).2.2) ∗ (∃ r, prngReg c r)) := by
  cases n with
  | zero => exact absurd rfl hz
  | succ n => rfl

/-! ## The pipeline's proof data -/

/-- The arrays as the region finds them; after the body each input's buffer at its block and the output's at
    `colsAt`; the invariant `PhiS`; nothing owed.  The two windows on the one bf16 copy of x (the row tile and the
    column tile) hold it at the two halves of the full share; every other window's array is held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (colsAt V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = (colsAt V c t.val t.isLt).1 := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

end Cert.Kernel.Tri

end
-- ==== Proof.K.Body.lean ====
/-
  The body obligation of the pipeline: at every point the body, called on the current staging buffers and the two
  scratch columns, runs and leaves what the proof data name.  By the point's position in its row (t mod 4): the
  first-tile run from columns at anything, the middle-tile run and the last-tile run from the columns the point
  before left.
-/
import proofs.«144779_j15917148799620_1_alg».proof.Proof.K.Points

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 4 = 0
  · have h1 : ¬t.val % 4 = 3 := by omega
    rw [show (dat V c).leavesExact 0 t = owns (c : Thread nD τ) (ms0 t) fullShare ((dat V c).after 0 t) from by
      unfold Dat.leavesExact; rw [live0 t], after0]
    rw [show (dat V c).leavesExact 1 t = owns (c : Thread nD τ) (ms1 t) fullShare ((dat V c).after 1 t) from by
      unfold Dat.leavesExact; rw [live1 t], after1]
    rw [show (dat V c).leavesExact 2 t = owns (c : Thread nD τ) (ms2 t) fullShare ((dat V c).after 2 t) from by
      unfold Dat.leavesExact; rw [live2 t], after2]
    rw [show (dat V c).leavesExact 3 t = owns (c : Thread nD τ) (ms3 t) fullShare ((dat V c).after 3 t) from by
      unfold Dat.leavesExact; rw [live3 t], after3]
    rw [show (dat V c).leavesExact 4 t = owns (c : Thread nD τ) (ms4 t) fullShare ((dat V c).after 4 t) from by
      unfold Dat.leavesExact; rw [live4 t], after4]
    rw [show (dat V c).leavesExact 5 t = owns (c : Thread nD τ) (ms5 t) fullShare ((dat V c).after 5 t) from by
      unfold Dat.leavesExact; rw [live5 t], after5]
    rw [Dat.leavesExact_idle (dat V c) 6 t (idle6_of_not_last t (fun h => h1 ((isLast_iff t).mp h))) (noFlush6_of_not_last t (fun h => h1 ((isLast_iff t).mp h)))]
    have hcols : (colsAt V c t.val t.isLt).2 = (stepAt V c t (idleOut, idleOut)).2 := by
      by_cases hz : t.val = 0
      · obtain ⟨n, hn⟩ := t; obtain rfl : n = 0 := hz; rfl
      · rw [colsAt_pos V c t hz]; exact congrArg Prod.snd (stepAt_first V c t h0 _ _)
    rw [hcols]; unfold stepAt; rw [dif_pos h0]; dsimp only
    unfold maxReset minReset; (try dsimp only)
    by_cases hz : t.val = 0
    · rw [Phi_castSucc V c t, PhiS_zero V c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxReset_cover c _ _ _ _ _ _ _ _ _ _ _ _ _ _ _ _ _ _ _ _ _ _ _ _ _ _ _)
          · unfold owns; iexists _; isplitr
            swap; · iexact HS1
            ipureintro; exact View.read_writes_of_cover _ _ _ _ _ (minReset_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxReset_cover c _ _ _ _ _ _ _ _ _ _ _ _ _ _ _ _ _ _ _ _ _ _ _ _ _ _ _)
          · unfold owns; iexists _; isplitr
            swap; · iexact HS1
            ipureintro; exact View.read_writes_of_cover _ _ _ _ _ (minReset_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h1 : t.val % 4 = 3
    · skip
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live5 t], after5]
      rw [show (dat V c).leavesExact 6 t = owns (c : Thread nD τ) (ms6 t) fullShare ((dat V c).after 6 t) from by
        unfold Dat.leavesExact; rw [live6_of_last t ((isLast_iff t).mpr h1)], after6]
      rw [colsAt_pos V c t hz]; unfold stepAt; rw [dif_neg h0, dif_pos h1]; dsimp only
      unfold outEmit maxEmit minEmit; (try dsimp only)
      rw [Phi_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runEmit c (grid0.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxEmit_cover c _ _ _ _ _ _ _ _ _ _ _ _ _ _ _ _ _ _ _ _ _ _ _ _ _ _ _ _ _)
          · unfold owns; iexists _; isplitr
            swap; · iexact HS1
            ipureintro; exact View.read_writes_of_cover _ _ _ _ _ (minEmit_cover c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outEmit_cover c _ _ _ _ _ _ _ _ _ _ _ _ _ _ _ _ _ _ _ _ _ _ _ _ _ _ _ _ _)
    · skip
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live5 t], after5]
      rw [Dat.leavesExact_idle (dat V c) 6 t (idle6_of_not_last t (fun h => h1 ((isLast_iff t).mp h))) (noFlush6_of_not_last t (fun h => h1 ((isLast_iff t).mp h)))]
      rw [colsAt_pos V c t hz]; unfold stepAt; rw [dif_neg h0, dif_neg h1]; dsimp only
      unfold maxFold minFold; (try dsimp only)
      rw [Phi_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runFold c (grid0.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxFold_cover c _ _ _ _ _ _ _ _ _ _ _ _ _ _ _ _ _ _ _ _ _ _ _ _ _ _ _ _ _)
          · unfold owns; iexists _; isplitr
            swap; · iexact HS1
            ipureintro; exact View.read_writes_of_cover _ _ _ _ _ (minFold_cover c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back: the columns' named contents are forgotten. -/
theorem hout (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1⟩, Hg⟩
  isplitl [HS0 HS1]
  · isplitl [HS0]
    · iexists _; iexact HS0
    · iexists _; iexact HS1
  iexact Hg

end Cert.Kernel.Tri

end
-- ==== Proof.K.Shares.lean ====
/-
  The launch: @main is the host operations before the region (the bf16 copy of x, the squared norms as a column and as
  a row, the labels as a row), the region, and the host operations after it (the sum of the per-anchor hinges and its
  division by the batch size).  The thread state between two segments is "every unscoped buffer whole at the
  boundary's contents".  At the region's entry the arrays the windows read are split out of it; the bf16 copy of x is
  read by TWO windows (the row tile and the column tile), so its full share is cut into its two halves, one per window,
  and at the exit the two halves, at equal contents, are joined back.  The post: every unscoped buffer at the last
  boundary's contents.
-/
import proofs.«144779_j15917148799620_1_alg».proof.Proof.K.Body

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The arrays at their shares -/

section Shares

variable (V : (c : Dev nD) → (b : Ref sig .tc) → Buf (Elt F) ((c : Thread nD τ).loc b))

/-- The distinct buffers behind the windows' arrays, listed. -/
theorem arrBufs_chain (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v3) ↦{fullShare} W main_v3)
        ∗ (((c : Thread nD τ).loc main_v4) ↦{fullShare} W main_v4) ∗ (((c : Thread nD τ).loc main_arg1) ↦{fullShare} W main_arg1)
        ∗ (((c : Thread nD τ).loc main_v5) ↦{fullShare} W main_v5) ∗ (((c : Thread nD τ).loc main_v6) ↦{fullShare} W main_v6)) := by
  unfold Pipeline.arrBufs
  exact bigSep_eq_bigSepL_of_eq [main_v0, main_v3, main_v4, main_arg1, main_v5, main_v6] (by decide) (by decide) _

/-- The pipeline's arrays, window by window, each at its share: the two windows on the bf16 copy of x at the two halves. -/
theorem arrays_chain (c : Dev nD) (G : (w : Fin cfg0.W) → Buf (Elt F) ((cfg0.win w).arr.view.loc (c : Thread nD τ))) :
    ((dat V c).arrays G : sProp 𝕄)
      = iprop((((c : Thread nD τ).loc main_v0) ↦{fullShare.left} G 0) ∗ (((c : Thread nD τ).loc main_v0) ↦{fullShare.right} G 1)
        ∗ (((c : Thread nD τ).loc main_v3) ↦{fullShare} G 2) ∗ (((c : Thread nD τ).loc main_v4) ↦{fullShare} G 3)
        ∗ (((c : Thread nD τ).loc main_arg1) ↦{fullShare} G 4) ∗ (((c : Thread nD τ).loc main_v5) ↦{fullShare} G 5)
        ∗ (((c : Thread nD τ).loc main_v6) ↦{fullShare} G 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY: a core's unscoped buffers at `V` are the pipeline's arrays at their shares and the unscoped rest. -/
theorem arrays_of_unscopedBufs (c : Dev nD) :
    (unscopedBufs c (V c) : sProp 𝕄) ⊢ iprop((dat V c).arrays (dat V c).A ∗ Pipeline.unscopedRest spec0 c (V c)) := by
  rw [Pipeline.unscopedBufs_split₀ cfgs (0 : Fin 1) winFacts₀0.arr_unscoped c (V c), arrBufs_chain, arrays_chain]
  iintro ⟨⟨H0, H3, H4, H1, H5, H6⟩, Hrest⟩
  ihave Hh := (pointsTo_share (PosShare.mem_left_op_right fullShare)).1 $$ H0
  icases Hh with ⟨Hl, Hr⟩
  isplitr [Hrest]
  · isplitl [Hl]; · iexact Hl
    isplitl [Hr]; · iexact Hr
    isplitl [H3]; · iexact H3
    isplitl [H4]; · iexact H4
    isplitl [H1]; · iexact H1
    isplitl [H5]; · iexact H5
    iexact H6
  · iexact Hrest

/-- EXIT: the arrays at contents `G` and the unscoped rest at `V` are the core's unscoped buffers at any `V'` that has
    the arrays at `G` (`hG`: in particular the two windows on the bf16 copy of x end at equal contents) and agrees
    with `V` off them. -/
theorem unscopedBufs_of_arrays (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V c b) :
    iprop((dat V c).arrays G ∗ Pipeline.unscopedRest spec0 c (V c)) ⊢ (unscopedBufs c V' : sProp 𝕄) := by
  rw [Pipeline.unscopedBufs_split₀ cfgs (0 : Fin 1) winFacts₀0.arr_unscoped c V', arrBufs_chain, arrays_chain,
    hG 0, hG 1, hG 2, hG 3, hG 4, hG 5, hG 6]
  have hr : (Pipeline.unscopedRest spec0 c V' : sProp 𝕄) = Pipeline.unscopedRest spec0 c (V c) := by
    unfold Pipeline.unscopedRest
    exact bigSep_congr fun b hb => by rw [hrest b (Finset.mem_sdiff.mp hb).2]
  rw [hr]
  iintro ⟨⟨Hl, Hr, H3, H4, H1, H5, H6⟩, Hrest⟩
  isplitr [Hrest]
  · isplitl [Hl Hr]
    · iapply (pointsTo_share (PosShare.mem_left_op_right fullShare)).2
      isplitl [Hl]; · iexact Hl
      iexact Hr
    isplitl [H3]; · iexact H3
    isplitl [H4]; · iexact H4
    isplitl [H1]; · iexact H1
    isplitl [H5]; · iexact H5
    iexact H6
  · iexact Hrest

end Shares

end Cert.Kernel.Tri

end
-- ==== Proof.K.Launch.lean ====
/-
  The run of @main: three segments.  The buffer contents at the segment boundaries are a fold from the launch
  memory: after the host operations before the region (`W1`: the region's entry), after the region (`W2`: the output
  array at what the write-backs leave, every other buffer as entered), after the host operations that follow it
  (`W3`).  The run ends with every unscoped buffer at `W3`.
-/
import proofs.«144779_j15917148799620_1_alg».proof.Proof.K.Shares

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- The output array after the region: the fold of the write-backs. -/
abbrev outArr (c : Dev nD) : Buf (Elt F) ((c : Thread nD τ).loc main_v6) := (dat (V1 m ρ) c).arrAt 6 cfg0.N
/-- At the region's exit: the output array at what the pipeline leaves, every other buffer as entered. -/
def W2 (c : Dev nD) : Valuation τ sig (Elt F) := Function.update (W1 m ρ c) (Proc.devRef .tc main_v6) (outArr m ρ c)
theorem W2_out (c : Dev nD) : W2 m ρ c (Proc.devRef .tc main_v6) = outArr m ρ c := by
  unfold W2; exact Function.update_self _ _ _
theorem W2_of_ne (c : Dev nD) (b : Ref sig .tc) (hb : b ≠ main_v6) : W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
/-- At the exit each array holds what the pipeline leaves: an input array what it held at entry, the output its fold. -/
theorem hG (c : Dev nD) : ∀ w, (dat (V1 m ρ) c).arrAt w cfg0.N = V2 m ρ c (Pipeline.arrRef spec0 w) := fun
  | ⟨0, _⟩ => ((dat (V1 m ρ) c).arrAt_in 0 rfl _).trans ((A_eq (V1 m ρ) c 0).trans (W2_of_ne m ρ c main_v0 (by decide)).symm)
  | ⟨1, _⟩ => ((dat (V1 m ρ) c).arrAt_in 1 rfl _).trans ((A_eq (V1 m ρ) c 1).trans (W2_of_ne m ρ c main_v0 (by decide)).symm)
  | ⟨2, _⟩ => ((dat (V1 m ρ) c).arrAt_in 2 rfl _).trans ((A_eq (V1 m ρ) c 2).trans (W2_of_ne m ρ c main_v3 (by decide)).symm)
  | ⟨3, _⟩ => ((dat (V1 m ρ) c).arrAt_in 3 rfl _).trans ((A_eq (V1 m ρ) c 3).trans (W2_of_ne m ρ c main_v4 (by decide)).symm)
  | ⟨4, _⟩ => ((dat (V1 m ρ) c).arrAt_in 4 rfl _).trans ((A_eq (V1 m ρ) c 4).trans (W2_of_ne m ρ c main_arg1 (by decide)).symm)
  | ⟨5, _⟩ => ((dat (V1 m ρ) c).arrAt_in 5 rfl _).trans ((A_eq (V1 m ρ) c 5).trans (W2_of_ne m ρ c main_v5 (by decide)).symm)
  | ⟨6, _⟩ => (W2_out m ρ c).symm
theorem hrest (c : Dev nD) : ∀ b, b ∉ Finset.univ.image (Pipeline.arrRef spec0) → V2 m ρ c b = V1 m ρ c b :=
  fun b hb => W2_of_ne m ρ c b fun e => hb (Finset.mem_image.mpr ⟨6, Finset.mem_univ _, e.symm⟩)
/-- After the host operations that follow the region. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
/-- The pipeline's proof data at the region's entry contents — a literal `match`. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`.  Its arrays are split
    out of the unscoped buffers at their shares and put back at the exit contents; the generator register goes into the
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscopedBufs (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine BIBase.Entails.trans (hout (V1 m ρ) c) ?_
    unfold Pipeline.ΦA
    iintro ⟨Hr, Hp⟩
    isplitl [Hp]; · iexact Hp
    isplitr; · iempintro
    iexact Hr
  hexit c := by
    have hjoin := unscopedBufs_of_arrays (V1 m ρ) c (V2 m ρ c) ((dat (V1 m ρ) c).arrAt · cfg0.N) (hG m ρ c) (hrest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- At the compiled mesh, from any memory with zero counters: every weakly fair execution of @main terminates, nothing
    faulting, and every final state has every unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Tri

end
-- ==== Proof.K.Frame.lean ====
/-
  The frame: no host operation writes an argument and the region only reads them, so the fold of the boundary
  contents at an argument's buffer walks back to the launch memory, and the run ends with both arguments as launched.
-/
import proofs.«144779_j15917148799620_1_alg».proof.Proof.K.Launch

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W3_arg0 m ρ c), (h c _ (mem_uc main_arg1 (by decide))).trans (W3_arg1 m ρ c)⟩)
    (run_main m ρ)

end Cert.Kernel.Tri

end
-- ==== Proof.KI.Sched.lean ====
/-
  The schedule of the pairwise-distance kernel on its 16 × 4 grid (row tile i, column tile j; point t = 4·i + j).
  The body resets its two running extrema (the scratch columns) on the first column tile (j = 0), folds the tile's
  row maximum and row minimum into them on every tile, and on the last column tile (j = 3) stores the per-anchor
  hinge into the output block.  Here: the two branch conditions as congruences of t, where the output window is
  idle and where it is written back, the staging memrefs the body is called with, and the scoped rest
  (the two scratch columns and the generator register) spelt out.
-/
import proofs.«144779_j15917148799620_1_alg».proof.Proof.Gen.KernelIdeal.Launch
import proofs.«144779_j15917148799620_1_alg».proof.Proof.Gen.KernelIdeal.Skeleton
import proofs.«144779_j15917148799620_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- "this is the first column tile": the body's first `scf.if`, from the grid coordinates. -/
abbrev isFirst (i : grid0.Coords) : Prop := (Scalar.cmpi .ne (Scalar.extui (Scalar.cmpi .eq (BitVec.ofNat 32 (i 1).val) 0#32)) 0#32) = 1#1
/-- It holds exactly at the points t ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)

/-- "this is the last column tile": the body's second `scf.if`. -/
abbrev isLast (i : grid0.Coords) : Prop := k0_cond2 i = 1#1
/-- It holds exactly at the points t ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Off the last column tile the output block is not stored: the window is idle there … -/
theorem idle6_of_not_last : ∀ t : Fin cfg0.N, ¬isLast (grid0.coords t) → cfg0.idle 6 (grid0.coords t) = true := by decide +kernel
/-- … and not written back there. -/
theorem noFlush6_of_not_last : ∀ t : Fin cfg0.N, ¬isLast (grid0.coords t) → (cfg0.win 6).flush t = false := by decide +kernel
/-- On the last column tile the output block is stored. -/
theorem live6_of_last : ∀ t : Fin cfg0.N, isLast (grid0.coords t) → cfg0.idle 6 (grid0.coords t) = false := by decide +kernel

/-! ## The memrefs the body is called with -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
/-- The running maximum's column and the running minimum's column: whole scoped buffers of the kernel's own. -/
abbrev scMax : Memref sig .tc .vmem S512x1 .f32 := Memref.whole cc0_scratch0
abbrev scMin : Memref sig .tc .vmem S512x1 .f32 := Memref.whole cc0_scratch1
/-- The views through which the contents of the two columns and of the output block are stated. -/
abbrev vMax : View sig .tc .vmem S512x1 .f32 := scMax.view
abbrev vMin : View sig .tc .vmem S512x1 .f32 := scMin.view
abbrev vOut : View sig .tc .vmem S512x1 .f32 := (Memref.whole cc0_stg6_0 : Memref sig .tc .vmem S512x1 .f32).view

/-- What the launch hands the region beside the windows: the two scratch columns at some contents and the generator
    register at some state. -/
theorem PhiA_eq (c : Dev nD) :
    (Pipeline.ΦA spec0 c : sProp 𝕄)
      = iprop(iprop((∃ d, owns (c : Thread nD τ) scMax fullShare d) ∗ (∃ d, owns (c : Thread nD τ) scMin fullShare d)) ∗ (∃ r, prngReg c r)) := by
  unfold Pipeline.ΦA; rw [scopedRest0_eq]; simp only [scMax, scMin, owns_whole]; try rfl

end Cert.KernelIdeal.Tri

end
-- ==== Proof.KI.RunReset.lean ====
/-
  The body on the FIRST column tile of a row (j = 0, which is not the last: the grid has four column tiles).
  Both scratch columns are overwritten whole by the fill constants before anything reads them, then the tile's row
  maximum and row minimum are folded in; the output block is not touched.  The triple is found by running the
  skeleton; the pieces each scratch column ends with are the witness.
-/
import proofs.«144779_j15917148799620_1_alg».proof.Proof.KI.Sched

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first-tile run: inputs at their blocks, the output's buffer handed back untouched, the two scratch columns
    at anything before and at their written pieces (`LMax`, `LMin`) after. -/
noncomputable def runReset (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 : Vec F S512x512 .bf16) (x1 : Vec F S2048x512 .bf16) (x2 : Vec F S512x1 .f32) (x3 : Vec F S1x2048 .f32) (x4 : Vec F S512x1 .i32) (x5 : Vec F S1x2048 .i32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Tri

end
-- ==== Proof.KI.RunFold.lean ====
/-
  The body on a MIDDLE column tile (j = 1, 2): neither reset nor emission.  The two scratch columns come in at what
  the tile before left (`sMax`, `sMin`) and leave with the tile's row maximum and row minimum folded in; the
  output block is not touched.
-/
import proofs.«144779_j15917148799620_1_alg».proof.Proof.KI.RunReset

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The middle-tile run: inputs at their blocks, the output's buffer handed back untouched, the scratch columns at the
    carried contents before and at their written pieces after. -/
noncomputable def runFold (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare sMax ∗ owns (c : Thread nD τ) arg10 fullShare sMin
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Tri

end
-- ==== Proof.KI.RunEmit.lean ====
/-
  The body on the LAST column tile of a row (j = 3): the tile's row maximum and row minimum are folded into the
  carried scratch columns, and the per-anchor hinge max(m⁺ + 1 − m⁻, 0) of the folded columns is stored whole into
  the output block.
-/
import proofs.«144779_j15917148799620_1_alg».proof.Proof.KI.RunFold

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last-tile run: inputs at their blocks, the output's buffer at anything before and at its written pieces
    (`LOut`) after, the scratch columns at the carried contents before and at their written pieces after. -/
noncomputable def runEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) :
    Σ' (LOut : List (View.Piece (Elt F) S512x1 .f32)) (LMax : List (View.Piece (Elt F) S512x1 .f32)), { LMin : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare sMax ∗ owns (c : Thread nD τ) arg10 fullShare sMin
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Tri

end
-- ==== Proof.KI.Points.lean ====
/-
  What the kernel leaves point by point, and the body obligation.
  At point t = 4·i + j the two scratch columns hold the running maximum and running minimum of row tile i over the
  column tiles 0 … j: on the first tile they are reset and the tile folded in, on later tiles the tile is folded into
  what the point before left.  On the last tile the output block is stored from the folded columns.  `colsAt` is
  that recursion; the proof data of the pipeline name it; the body obligation is the three runs, chosen by t mod 4.
  Everything is stated at the contents `V` the region is entered with.
-/
import proofs.«144779_j15917148799620_1_alg».proof.Proof.KI.RunEmit

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each run leaves, read back -/

def maxReset (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) : Vec F S512x1 .f32 :=
  vMax.read (Elt F) (vMax.writes (Elt F) vMax.junk (runReset c i arg2 harg2 arg3 harg3 arg4 harg4 arg5 harg5 arg6 harg6 arg7 harg7 arg8 harg8 arg9 harg9 arg10 harg10 hc0 hc1 x0 x1 x2 x3 x4 x5).1)
def minReset (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) : Vec F S512x1 .f32 :=
  vMin.read (Elt F) (vMin.writes (Elt F) vMin.junk (runReset c i arg2 harg2 arg3 harg3 arg4 harg4 arg5 harg5 arg6 harg6 arg7 harg7 arg8 harg8 arg9 harg9 arg10 harg10 hc0 hc1 x0 x1 x2 x3 x4 x5).2.1)
theorem maxReset_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) :
    ∃ pc ∈ (runReset c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (runReset c i arg2 harg2 arg3 harg3 arg4 harg4 arg5 harg5 arg6 harg6 arg7 harg7 arg8 harg8 arg9 harg9 arg10 harg10 hc0 hc1 x0 x1 x2 x3 x4 x5).1 S512x1.size (by sl_kernel_rfl) y
theorem minReset_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) :
    ∃ pc ∈ (runReset c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (runReset c i arg2 harg2 arg3 harg3 arg4 harg4 arg5 harg5 arg6 harg6 arg7 harg7 arg8 harg8 arg9 harg9 arg10 harg10 hc0 hc1 x0 x1 x2 x3 x4 x5).2.1 S512x1.size (by sl_kernel_rfl) y

def maxFold (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMax.read (Elt F) (vMax.writes (Elt F) vMax.junk (runFold c i arg2 harg2 arg3 harg3 arg4 harg4 arg5 harg5 arg6 harg6 arg7 harg7 arg8 harg8 arg9 harg9 arg10 harg10 hc0 hc1 x0 x1 x2 x3 x4 x5 sMax sMin).1)
def minFold (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMin.read (Elt F) (vMin.writes (Elt F) vMin.junk (runFold c i arg2 harg2 arg3 harg3 arg4 harg4 arg5 harg5 arg6 harg6 arg7 harg7 arg8 harg8 arg9 harg9 arg10 harg10 hc0 hc1 x0 x1 x2 x3 x4 x5 sMax sMin).2.1)
theorem maxFold_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runFold c i arg2 harg2 arg3 harg3 arg4 harg4 arg5 harg5 arg6 harg6 arg7 harg7 arg8 harg8 arg9 harg9 arg10 harg10 hc0 hc1 x0 x1 x2 x3 x4 x5 sMax sMin).1, y ∈ pc.1.set :=
  View.cover_of_tiledL (runFold c i arg2 harg2 arg3 harg3 arg4 harg4 arg5 harg5 arg6 harg6 arg7 harg7 arg8 harg8 arg9 harg9 arg10 harg10 hc0 hc1 x0 x1 x2 x3 x4 x5 sMax sMin).1 S512x1.size (by sl_kernel_rfl) y
theorem minFold_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runFold c i arg2 harg2 arg3 harg3 arg4 harg4 arg5 harg5 arg6 harg6 arg7 harg7 arg8 harg8 arg9 harg9 arg10 harg10 hc0 hc1 x0 x1 x2 x3 x4 x5 sMax sMin).2.1, y ∈ pc.1.set :=
  View.cover_of_tiledL (runFold c i arg2 harg2 arg3 harg3 arg4 harg4 arg5 harg5 arg6 harg6 arg7 harg7 arg8 harg8 arg9 harg9 arg10 harg10 hc0 hc1 x0 x1 x2 x3 x4 x5 sMax sMin).2.1 S512x1.size (by sl_kernel_rfl) y

def outEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vOut.read (Elt F) (vOut.writes (Elt F) vOut.junk (runEmit c i arg2 harg2 arg3 harg3 arg4 harg4 arg5 harg5 arg6 harg6 arg7 harg7 arg8 harg8 arg9 harg9 arg10 harg10 hc0 hc1 x0 x1 x2 x3 x4 x5 sMax sMin).1)
def maxEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMax.read (Elt F) (vMax.writes (Elt F) vMax.junk (runEmit c i arg2 harg2 arg3 harg3 arg4 harg4 arg5 harg5 arg6 harg6 arg7 harg7 arg8 harg8 arg9 harg9 arg10 harg10 hc0 hc1 x0 x1 x2 x3 x4 x5 sMax sMin).2.1)
def minEmit (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) : Vec F S512x1 .f32 :=
  vMin.read (Elt F) (vMin.writes (Elt F) vMin.junk (runEmit c i arg2 harg2 arg3 harg3 arg4 harg4 arg5 harg5 arg6 harg6 arg7 harg7 arg8 harg8 arg9 harg9 arg10 harg10 hc0 hc1 x0 x1 x2 x3 x4 x5 sMax sMin).2.2.1)
theorem outEmit_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runEmit c i arg2 harg2 arg3 harg3 arg4 harg4 arg5 harg5 arg6 harg6 arg7 harg7 arg8 harg8 arg9 harg9 arg10 harg10 hc0 hc1 x0 x1 x2 x3 x4 x5 sMax sMin).1, y ∈ pc.1.set :=
  View.cover_of_tiledL (runEmit c i arg2 harg2 arg3 harg3 arg4 harg4 arg5 harg5 arg6 harg6 arg7 harg7 arg8 harg8 arg9 harg9 arg10 harg10 hc0 hc1 x0 x1 x2 x3 x4 x5 sMax sMin).1 S512x1.size (by sl_kernel_rfl) y
theorem maxEmit_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runEmit c i arg2 harg2 arg3 harg3 arg4 harg4 arg5 harg5 arg6 harg6 arg7 harg7 arg8 harg8 arg9 harg9 arg10 harg10 hc0 hc1 x0 x1 x2 x3 x4 x5 sMax sMin).2.1, y ∈ pc.1.set :=
  View.cover_of_tiledL (runEmit c i arg2 harg2 arg3 harg3 arg4 harg4 arg5 harg5 arg6 harg6 arg7 harg7 arg8 harg8 arg9 harg9 arg10 harg10 hc0 hc1 x0 x1 x2 x3 x4 x5 sMax sMin).2.1 S512x1.size (by sl_kernel_rfl) y
theorem minEmit_cover (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32) (y : S512x1.Idx) :
    ∃ pc ∈ (runEmit c i arg2 harg2 arg3 harg3 arg4 harg4 arg5 harg5 arg6 harg6 arg7 harg7 arg8 harg8 arg9 harg9 arg10 harg10 hc0 hc1 x0 x1 x2 x3 x4 x5 sMax sMin).2.2.1, y ∈ pc.1.set :=
  View.cover_of_tiledL (runEmit c i arg2 harg2 arg3 harg3 arg4 harg4 arg5 harg5 arg6 harg6 arg7 harg7 arg8 harg8 arg9 harg9 arg10 harg10 hc0 hc1 x0 x1 x2 x3 x4 x5 sMax sMin).2.2.1 S512x1.size (by sl_kernel_rfl) y

/-! ## The recursion over the points -/

/-- The output block's staging contents where no point stores it: a placeholder nothing consults (the window is idle
    and not written back there). -/
def idleOut : Vec F S512x1 .f32 := vOut.read (Elt F) vOut.junk

/-- One point: from what the point before left in the two scratch columns (`prev`, ignored on a first tile) to what
    this point leaves in the output's buffer and in the two columns, by the tile's position in its row. -/
def stepAt (c : Dev nD) (t : Fin cfg0.N) (prev : Vec F S512x1 .f32 × Vec F S512x1 .f32) :
    Vec F S512x1 .f32 × Vec F S512x1 .f32 × Vec F S512x1 .f32 :=
  if h0 : t.val % 4 = 0 then
    (idleOut, maxReset c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => by have := (isLast_iff t).mp h; omega) (iblk V c 0 t) (iblk V c 1 t) (iblk V c 2 t) (iblk V c 3 t) (iblk V c 4 t) (iblk V c 5 t),
      minReset c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => by have := (isLast_iff t).mp h; omega) (iblk V c 0 t) (iblk V c 1 t) (iblk V c 2 t) (iblk V c 3 t) (iblk V c 4 t) (iblk V c 5 t))
  else if h1 : t.val % 4 = 3 then
    (outEmit c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) prev.1 prev.2,
      maxEmit c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) prev.1 prev.2,
      minEmit c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) prev.1 prev.2)
  else
    (idleOut, maxFold c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) prev.1 prev.2,
      minFold c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) prev.1 prev.2)

/-- What the output's buffer and the two scratch columns hold after the body at position `n`. -/
def colsAt (c : Dev nD) : (n : ℕ) → n < cfg0.N → Vec F S512x1 .f32 × Vec F S512x1 .f32 × Vec F S512x1 .f32
  | 0, hn => stepAt V c ⟨0, hn⟩ (idleOut, idleOut)
  | n + 1, hn => stepAt V c ⟨n + 1, hn⟩ (colsAt c n (Nat.lt_of_succ_lt hn)).2

theorem colsAt_pos (c : Dev nD) (t : Fin cfg0.N) (ht : t.val ≠ 0) :
    colsAt V c t.val t.isLt = stepAt V c t (colsAt V c (t.val - 1) (Nat.lt_of_le_of_lt (Nat.sub_le _ _) t.isLt)).2 := by
  obtain ⟨n, hn⟩ := t
  cases n with
  | zero => exact absurd rfl ht
  | succ n => rfl

theorem stepAt_first (c : Dev nD) (t : Fin cfg0.N) (h0 : t.val % 4 = 0) (prev prev' : Vec F S512x1 .f32 × Vec F S512x1 .f32) :
    stepAt V c t prev = stepAt V c t prev' := by
  unfold stepAt; rw [dif_pos h0, dif_pos h0]

/-- The invariant before position `n`: before the first point the two columns hold anything; afterwards what the
    point before left. -/
def PhiS (c : Dev nD) : (n : ℕ) → n ≤ cfg0.N → sProp 𝕄
  | 0, _ => Pipeline.ΦA spec0 c
  | n + 1, hn => iprop(iprop(owns (c : Thread nD τ) scMax fullShare (colsAt V c n hn).2.1 ∗ owns (c : Thread nD τ) scMin fullShare (colsAt V c n hn).2.2) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (colsAt V c n hn).2.1 ∗ owns (c : Thread nD τ) scMin fullShare (colsAt V c n hn).2.2) ∗ (∃ r, prngReg c r)) := rfl
theorem PhiS_pos (c : Dev nD) (n : ℕ) (h : n ≤ cfg0.N) (hz : n ≠ 0) :
    PhiS V c n h = iprop(iprop(owns (c : Thread nD τ) scMax fullShare (colsAt V c (n - 1) (by omega)).2.1 ∗ owns (c : Thread nD τ) scMin fullShare (colsAt V c (n - 1) (by omega)).2.2) ∗ (∃ r, prngReg c r)) := by
  cases n with
  | zero => exact absurd rfl hz
  | succ n => rfl

/-! ## The pipeline's proof data -/

/-- The arrays as the region finds them; after the body each input's buffer at its block and the output's at
    `colsAt`; the invariant `PhiS`; nothing owed.  The two windows on the one bf16 copy of x (the row tile and the
    column tile) hold it at the two halves of the full share; every other window's array is held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (colsAt V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = (colsAt V c t.val t.isLt).1 := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

end Cert.KernelIdeal.Tri

end
-- ==== Proof.KI.Blocks.lean ====
/-
  The blocks the body loads at point t = 4·i + j, read off the arrays the region is entered with: the row tile i of the
  bf16 copy of x, of the squared norms' column and of the labels' column; the column tile j of the bf16 copy of x, of
  the squared norms' row and of the labels' row.  A block's coordinate is its index times its extent plus the
  coordinate inside the block.
-/
import proofs.«144779_j15917148799620_1_alg».proof.Proof.KI.Points
import Idealize.ShloMosaic.Lib.Pipeline.Value
import Idealize.ShloMosaic.Lib.ValueIdx

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps over the grid: rows move with t / 4, columns with t % 4. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4
    ∧ win0_6.index t (0 : Fin 2) = t.val / 4 ∧ win0_6.index t (1 : Fin 2) = 0 :=
  (by decide +kernel : ∀ t : Fin grid0.N, _)

section Blocks
variable (c : Dev nD) (t : Fin cfg0.N)

theorem iblk0_apply (p d : Fin 512) (r : Fin 8192) (hr : r.val = 512 * (t.val / 4) + p.val) :
    iblk V c 0 t (ix2 p d) = V c main_v0 (ix2 r d) := by
  obtain ⟨e0, e1, -⟩ := idx_facts t
  show V c main_v0 (((cfg0.win 0).blk t).view.emb (ix2 p d)) = V c main_v0 (ix2 r d)
  refine congrArg (V c main_v0) (funext fun a => Fin.ext ?_)
  match a with
  | ⟨0, _⟩ => show win0_0.index t (0 : Fin 2) * 512 + 1 * p.val = r.val; omega
  | ⟨1, _⟩ => show win0_0.index t (1 : Fin 2) * 512 + 1 * d.val = d.val; omega

theorem iblk1_apply (q : Fin 2048) (d : Fin 512) (n : Fin 8192) (hn : n.val = 2048 * (t.val % 4) + q.val) :
    iblk V c 1 t (ix2 q d) = V c main_v0 (ix2 n d) := by
  obtain ⟨-, -, e0, e1, -⟩ := idx_facts t
  show V c main_v0 (((cfg0.win 1).blk t).view.emb (ix2 q d)) = V c main_v0 (ix2 n d)
  refine congrArg (V c main_v0) (funext fun a => Fin.ext ?_)
  match a with
  | ⟨0, _⟩ => show win0_1.index t (0 : Fin 2) * 2048 + 1 * q.val = n.val; omega
  | ⟨1, _⟩ => show win0_1.index t (1 : Fin 2) * 512 + 1 * d.val = d.val; omega

theorem iblk2_apply (p : Fin 512) (r : Fin 8192) (hr : r.val = 512 * (t.val / 4) + p.val) :
    iblk V c 2 t (ix2 p 0) = V c main_v3 (ix2 r 0) := by
  obtain ⟨-, -, -, -, e0, e1, -⟩ := idx_facts t
  show V c main_v3 (((cfg0.win 2).blk t).view.emb (ix2 p 0)) = V c main_v3 (ix2 r 0)
  refine congrArg (V c main_v3) (funext fun a => Fin.ext ?_)
  match a with
  | ⟨0, _⟩ => show win0_2.index t (0 : Fin 2) * 512 + 1 * p.val = r.val; omega
  | ⟨1, _⟩ => show win0_2.index t (1 : Fin 2) * 1 + 1 * 0 = 0; omega

theorem iblk3_apply (q : Fin 2048) (n : Fin 8192) (hn : n.val = 2048 * (t.val % 4) + q.val) :
    iblk V c 3 t (ix2 0 q) = V c main_v4 (ix2 0 n) := by
  obtain ⟨-, -, -, -, -, -, e0, e1, -⟩ := idx_facts t
  show V c main_v4 (((cfg0.win 3).blk t).view.emb (ix2 0 q)) = V c main_v4 (ix2 0 n)
  refine congrArg (V c main_v4) (funext fun a => Fin.ext ?_)
  match a with
  | ⟨0, _⟩ => show win0_3.index t (0 : Fin 2) * 1 + 1 * 0 = 0; omega
  | ⟨1, _⟩ => show win0_3.index t (1 : Fin 2) * 2048 + 1 * q.val = n.val; omega

theorem iblk4_apply (p : Fin 512) (r : Fin 8192) (hr : r.val = 512 * (t.val / 4) + p.val) :
    iblk V c 4 t (ix2 p 0) = V c main_arg1 (ix2 r 0) := by
  obtain ⟨-, -, -, -, -, -, -, -, e0, e1, -⟩ := idx_facts t
  show V c main_arg1 (((cfg0.win 4).blk t).view.emb (ix2 p 0)) = V c main_arg1 (ix2 r 0)
  refine congrArg (V c main_arg1) (funext fun a => Fin.ext ?_)
  match a with
  | ⟨0, _⟩ => show win0_4.index t (0 : Fin 2) * 512 + 1 * p.val = r.val; omega
  | ⟨1, _⟩ => show win0_4.index t (1 : Fin 2) * 1 + 1 * 0 = 0; omega

theorem iblk5_apply (q : Fin 2048) (n : Fin 8192) (hn : n.val = 2048 * (t.val % 4) + q.val) :
    iblk V c 5 t (ix2 0 q) = V c main_v5 (ix2 0 n) := by
  obtain ⟨-, -, -, -, -, -, -, -, -, -, e0, e1, -⟩ := idx_facts t
  show V c main_v5 (((cfg0.win 5).blk t).view.emb (ix2 0 q)) = V c main_v5 (ix2 0 n)
  refine congrArg (V c main_v5) (funext fun a => Fin.ext ?_)
  match a with
  | ⟨0, _⟩ => show win0_5.index t (0 : Fin 2) * 1 + 1 * 0 = 0; omega
  | ⟨1, _⟩ => show win0_5.index t (1 : Fin 2) * 2048 + 1 * q.val = n.val; omega

end Blocks

end Cert.KernelIdeal.Tri

end
-- ==== Proof.KI.Pieces.lean ====
/-
  What each run leaves, as the body's arithmetic.  The pieces a run found are single whole-buffer stores (a later one
  covering an earlier one), so each buffer reads back as its last store's payload, and a load after a store reads that
  store's payload:
    first tile :  m⁺ ← max(fill⁻, tile max),  m⁻ ← min(fill⁺, tile min)
    later tile :  m⁺ ← max(m⁺, tile max),     m⁻ ← min(m⁻, tile min)
    last tile  :  out ← max(m⁺ + 1 − m⁻, 0) of the folded columns.
-/
import proofs.«144779_j15917148799620_1_alg».proof.Proof.KI.Points
import Idealize.ShloMosaic.Lib.Pipeline.Value

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

section Reset
variable (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32)

theorem maxReset_eq : maxReset c i arg2 harg2 arg3 harg3 arg4 harg4 arg5 harg5 arg6 harg6 arg7 harg7 arg8 harg8 arg9 harg9 arg10 harg10 hc0 hc1 x0 x1 x2 x3 x4 x5 = k0_pay1 (k0_pay8 x0 x1 x2 x3 x4 x5) (k0_pay4 (F := F)) := by
  unfold maxReset
  rw [View.read_writes_eq_canon _ _ _ (maxReset_cover c i arg2 harg2 arg3 harg3 arg4 harg4 arg5 harg5 arg6 harg6 arg7 harg7 arg8 harg8 arg9 harg9 arg10 harg10 hc0 hc1 x0 x1 x2 x3 x4 x5)]
  unfold runReset; dsimp only; sl_unfold_words
  rw [View.canon_cons_unit_zero (S := S512x1) hz2]
  simp only [View.readAt_eq_ld, harg2.read_unread, harg3.read_unread, harg4.read_unread, harg5.read_unread, harg6.read_unread, harg7.read_unread, harg9.read_unread, harg10.read_unread,
    View.ld_unit_zero (S := S512x512) hz2, View.ld_unit_zero (S := S2048x512) hz2, View.ld_unit_zero (S := S512x1) hz2,
    View.ld_unit_zero (S := S1x2048) hz2, View.readCov_unit_zero (S := S512x1) _ hz2]

theorem minReset_eq : minReset c i arg2 harg2 arg3 harg3 arg4 harg4 arg5 harg5 arg6 harg6 arg7 harg7 arg8 harg8 arg9 harg9 arg10 harg10 hc0 hc1 x0 x1 x2 x3 x4 x5 = k0_pay2 (k0_pay9 x0 x1 x2 x3 x4 x5) (k0_pay5 (F := F)) := by
  unfold minReset
  rw [View.read_writes_eq_canon _ _ _ (minReset_cover c i arg2 harg2 arg3 harg3 arg4 harg4 arg5 harg5 arg6 harg6 arg7 harg7 arg8 harg8 arg9 harg9 arg10 harg10 hc0 hc1 x0 x1 x2 x3 x4 x5)]
  unfold runReset; dsimp only; sl_unfold_words
  rw [View.canon_cons_unit_zero (S := S512x1) hz2]
  simp only [View.readAt_eq_ld, harg2.read_unread, harg3.read_unread, harg4.read_unread, harg5.read_unread, harg6.read_unread, harg7.read_unread, harg9.read_unread, harg10.read_unread,
    View.ld_unit_zero (S := S512x512) hz2, View.ld_unit_zero (S := S2048x512) hz2, View.ld_unit_zero (S := S512x1) hz2,
    View.ld_unit_zero (S := S1x2048) hz2, View.readCov_unit_zero (S := S512x1) _ hz2]
end Reset

section Fold
variable (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32)

theorem maxFold_eq : maxFold c i arg2 harg2 arg3 harg3 arg4 harg4 arg5 harg5 arg6 harg6 arg7 harg7 arg8 harg8 arg9 harg9 arg10 harg10 hc0 hc1 x0 x1 x2 x3 x4 x5 sMax sMin = k0_pay1 (k0_pay8 x0 x1 x2 x3 x4 x5) sMax := by
  unfold maxFold
  rw [View.read_writes_eq_canon _ _ _ (maxFold_cover c i arg2 harg2 arg3 harg3 arg4 harg4 arg5 harg5 arg6 harg6 arg7 harg7 arg8 harg8 arg9 harg9 arg10 harg10 hc0 hc1 x0 x1 x2 x3 x4 x5 sMax sMin)]
  unfold runFold; dsimp only; sl_unfold_words
  rw [View.canon_unit_zero (S := S512x1) hz2]
  simp only [View.readAt_eq_ld, harg2.read_unread, harg3.read_unread, harg4.read_unread, harg5.read_unread, harg6.read_unread, harg7.read_unread, harg9.read_unread, harg10.read_unread,
    View.ld_unit_zero (S := S512x512) hz2, View.ld_unit_zero (S := S2048x512) hz2, View.ld_unit_zero (S := S512x1) hz2,
    View.ld_unit_zero (S := S1x2048) hz2, View.readCov_unit_zero (S := S512x1) _ hz2]

theorem minFold_eq : minFold c i arg2 harg2 arg3 harg3 arg4 harg4 arg5 harg5 arg6 harg6 arg7 harg7 arg8 harg8 arg9 harg9 arg10 harg10 hc0 hc1 x0 x1 x2 x3 x4 x5 sMax sMin = k0_pay2 (k0_pay9 x0 x1 x2 x3 x4 x5) sMin := by
  unfold minFold
  rw [View.read_writes_eq_canon _ _ _ (minFold_cover c i arg2 harg2 arg3 harg3 arg4 harg4 arg5 harg5 arg6 harg6 arg7 harg7 arg8 harg8 arg9 harg9 arg10 harg10 hc0 hc1 x0 x1 x2 x3 x4 x5 sMax sMin)]
  unfold runFold; dsimp only; sl_unfold_words
  rw [View.canon_unit_zero (S := S512x1) hz2]
  simp only [View.readAt_eq_ld, harg2.read_unread, harg3.read_unread, harg4.read_unread, harg5.read_unread, harg6.read_unread, harg7.read_unread, harg9.read_unread, harg10.read_unread,
    View.ld_unit_zero (S := S512x512) hz2, View.ld_unit_zero (S := S2048x512) hz2, View.ld_unit_zero (S := S512x1) hz2,
    View.ld_unit_zero (S := S1x2048) hz2, View.readCov_unit_zero (S := S512x1) _ hz2]
end Fold

section Emit
variable (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x512 .bf16) (x1 : Vec F S2048x512 .bf16) (x2 : Vec F S512x1 .f32) (x3 : Vec F S1x2048 .f32) (x4 : Vec F S512x1 .i32) (x5 : Vec F S1x2048 .i32) (sMax sMin : Vec F S512x1 .f32)

theorem maxEmit_eq : maxEmit c i arg2 harg2 arg3 harg3 arg4 harg4 arg5 harg5 arg6 harg6 arg7 harg7 arg8 harg8 arg9 harg9 arg10 harg10 hc0 hc1 x0 x1 x2 x3 x4 x5 sMax sMin = k0_pay1 (k0_pay8 x0 x1 x2 x3 x4 x5) sMax := by
  unfold maxEmit
  rw [View.read_writes_eq_canon _ _ _ (maxEmit_cover c i arg2 harg2 arg3 harg3 arg4 harg4 arg5 harg5 arg6 harg6 arg7 harg7 arg8 harg8 arg9 harg9 arg10 harg10 hc0 hc1 x0 x1 x2 x3 x4 x5 sMax sMin)]
  unfold runEmit; dsimp only; sl_unfold_words
  rw [View.canon_unit_zero (S := S512x1) hz2]
  simp only [View.readAt_eq_ld, harg2.read_unread, harg3.read_unread, harg4.read_unread, harg5.read_unread, harg6.read_unread, harg7.read_unread, harg9.read_unread, harg10.read_unread,
    View.ld_unit_zero (S := S512x512) hz2, View.ld_unit_zero (S := S2048x512) hz2, View.ld_unit_zero (S := S512x1) hz2,
    View.ld_unit_zero (S := S1x2048) hz2, View.readCov_unit_zero (S := S512x1) _ hz2]

theorem minEmit_eq : minEmit c i arg2 harg2 arg3 harg3 arg4 harg4 arg5 harg5 arg6 harg6 arg7 harg7 arg8 harg8 arg9 harg9 arg10 harg10 hc0 hc1 x0 x1 x2 x3 x4 x5 sMax sMin = k0_pay2 (k0_pay9 x0 x1 x2 x3 x4 x5) sMin := by
  unfold minEmit
  rw [View.read_writes_eq_canon _ _ _ (minEmit_cover c i arg2 harg2 arg3 harg3 arg4 harg4 arg5 harg5 arg6 harg6 arg7 harg7 arg8 harg8 arg9 harg9 arg10 harg10 hc0 hc1 x0 x1 x2 x3 x4 x5 sMax sMin)]
  unfold runEmit; dsimp only; sl_unfold_words
  rw [View.canon_unit_zero (S := S512x1) hz2]
  simp only [View.readAt_eq_ld, harg2.read_unread, harg3.read_unread, harg4.read_unread, harg5.read_unread, harg6.read_unread, harg7.read_unread, harg9.read_unread, harg10.read_unread,
    View.ld_unit_zero (S := S512x512) hz2, View.ld_unit_zero (S := S2048x512) hz2, View.ld_unit_zero (S := S512x1) hz2,
    View.ld_unit_zero (S := S1x2048) hz2, View.readCov_unit_zero (S := S512x1) _ hz2]

theorem outEmit_eq : outEmit c i arg2 harg2 arg3 harg3 arg4 harg4 arg5 harg5 arg6 harg6 arg7 harg7 arg8 harg8 arg9 harg9 arg10 harg10 hc0 hc1 x0 x1 x2 x3 x4 x5 sMax sMin
    = k0_pay3 (k0_pay1 (k0_pay8 x0 x1 x2 x3 x4 x5) sMax) (k0_pay2 (k0_pay9 x0 x1 x2 x3 x4 x5) sMin) := by
  unfold outEmit
  rw [View.read_writes_eq_canon _ _ _ (outEmit_cover c i arg2 harg2 arg3 harg3 arg4 harg4 arg5 harg5 arg6 harg6 arg7 harg7 arg8 harg8 arg9 harg9 arg10 harg10 hc0 hc1 x0 x1 x2 x3 x4 x5 sMax sMin)]
  unfold runEmit; dsimp only; sl_unfold_words
  rw [View.canon_unit_zero (S := S512x1) hz2]
  simp only [View.readAt_eq_ld, harg2.read_unread, harg3.read_unread, harg4.read_unread, harg5.read_unread, harg6.read_unread, harg7.read_unread, harg9.read_unread, harg10.read_unread,
    View.ld_unit_zero (S := S512x512) hz2, View.ld_unit_zero (S := S2048x512) hz2, View.ld_unit_zero (S := S512x1) hz2,
    View.ld_unit_zero (S := S1x2048) hz2, View.readCov_unit_zero (S := S512x1) _ hz2]
end Emit

end Cert.KernelIdeal.Tri

end
-- ==== Proof.Spec.lean ====
/-
  The batch-hard triplet loss over 8192 anchors of dimension 512 with integer labels, as a function on the extended
  reals, in two arrangements.

  For anchors r, n:  dist r n = max(‖x r‖² + ‖x n‖² − 2·⟨x r, x n⟩, 0);  same r n ⇔ y r = y n.
  The hardest positive of r is the maximum over n of (dist r n where same, the fill −1e30 elsewhere); the hardest
  negative the minimum over n of (the fill +1e30 where same, dist r n elsewhere); the loss is the mean over r of
  max(hardPos r + 1 − hardNeg r, 0).

  The WHOLE arrangement takes each extremum over all 8192 columns at once, from −∞ (resp. +∞).
  The TILED arrangement takes it over four column tiles of 2048, each from −∞ (+∞), and folds the four tile extrema
  into a running value that starts at the fill −1e30 (+1e30).  The two agree: every candidate of the maximum is at least
  the fill (a distance is ≥ 0 > −1e30), so starting the fold at the fill changes nothing; and the diagonal candidate
  n = r of the minimum IS the fill +1e30 (y r = y r), so the minimum is already at most the fill.
-/
import Idealize.ShloMosaic.PureOps.Ideal
import Idealize.ShloMosaic.PureOps.Ideal.Laws
import Idealize.ShloMosaic.Lib.ValueIdx
import Mathlib.Data.Finset.Fold

noncomputable section

namespace Cert.TripletSpec

open Idealize.ShloMosaic

/-- The two fill constants, −1e30 and +1e30 as f32 words. -/
abbrev negFill : EReal := Ideal.ofBits .f32 0xF149F2CA#32
abbrev posFill : EReal := Ideal.ofBits .f32 0x7149F2CA#32
/-- The f32 words of 0, 1, 2, 8192 and of −∞, +∞. -/
abbrev zeroW : EReal := Ideal.ofBits .f32 0x00000000#32
abbrev oneW : EReal := Ideal.ofBits .f32 0x3F800000#32
abbrev twoW : EReal := Ideal.ofBits .f32 0x40000000#32
abbrev nW : EReal := Ideal.ofBits .f32 0x46000000#32
abbrev botW : EReal := Ideal.ofBits .f32 0xFF800000#32
abbrev topW : EReal := Ideal.ofBits .f32 0x7F800000#32

variable (x : Fin 8192 → Fin 512 → EReal) (y : Fin 8192 → BitVec 32)

/-- ‖x r‖², as a host sum from the zero word. -/
def sqn (r : Fin 8192) : EReal := zeroW + ∑ d : Fin 512, x r d * x r d
/-- ⟨x r, x n⟩. -/
def gram (r n : Fin 8192) : EReal := ∑ d : Fin 512, x r d * x n d
/-- The floored squared distance. -/
def dist (r n : Fin 8192) : EReal := max ((sqn x r + sqn x n) - twoW * gram x r n) zeroW
/-- Equal labels, as the comparison's bit. -/
def same (r n : Fin 8192) : BitVec 1 := IntOp.cmpi .eq (y r) (y n)
/-- The maximum's candidate and the minimum's candidate at column n. -/
def posCand (r n : Fin 8192) : EReal := Scalar.select (same y r n) (dist x r n) negFill
def negCand (r n : Fin 8192) : EReal := Scalar.select (same y r n) posFill (dist x r n)

/-! ## The whole arrangement -/

def hardPos (r : Fin 8192) : EReal := (Finset.univ : Finset (Fin 8192)).fold max botW (fun n => posCand x y r n)
def hardNeg (r : Fin 8192) : EReal := (Finset.univ : Finset (Fin 8192)).fold min topW (fun n => negCand x y r n)
/-- max(a + 1 − b, 0). -/
def hinge (a b : EReal) : EReal := max ((a + oneW) - b) zeroW
/-- The loss: the host sum of the per-anchor hinges from the zero word, divided by the word of 8192. -/
def loss : EReal := Ideal.div (zeroW + ∑ r : Fin 8192, hinge (hardPos x y r) (hardNeg x y r)) nW

/-! ## The tiled arrangement -/

/-- Column q of column tile j. -/
def col (j : Fin 4) (q : Fin 2048) : Fin 8192 := ⟨2048 * j.val + q.val, by omega⟩
def tilePos (r : Fin 8192) (j : Fin 4) : EReal := (Finset.univ : Finset (Fin 2048)).fold max botW (fun q => posCand x y r (col j q))
def tileNeg (r : Fin 8192) (j : Fin 4) : EReal := (Finset.univ : Finset (Fin 2048)).fold min topW (fun q => negCand x y r (col j q))
/-- The running maximum after the four tiles, from the fill. -/
def runPos (r : Fin 8192) : EReal := max (max (max (max negFill (tilePos x y r 0)) (tilePos x y r 1)) (tilePos x y r 2)) (tilePos x y r 3)
def runNeg (r : Fin 8192) : EReal := min (min (min (min posFill (tileNeg x y r 0)) (tileNeg x y r 1)) (tileNeg x y r 2)) (tileNeg x y r 3)

/-! ## The two arrangements agree -/

/-- The word of −∞ is the bottom element, the word of +∞ the top element. -/
theorem botW_eq : botW = ⊥ := by simp [Ideal.ofBits, Ideal.ieee]
theorem topW_eq : topW = ⊤ := by simp [Ideal.ofBits, Ideal.ieee]

/-- The negative fill is below zero: its sign bit is set. -/
theorem negFill_le_zeroW : negFill ≤ zeroW := by
  show Ideal.ofBits .f32 0xF149F2CA#32 ≤ Ideal.ofBits .f32 0x00000000#32
  rw [Ideal.ofBits_zero_f32]
  simp [Ideal.ofBits, Ideal.ieee, -EReal.coe_mul]

/-- A distance is floored at zero, so every candidate of the maximum is at least the negative fill. -/
theorem negFill_le_posCand (r n : Fin 8192) : negFill ≤ posCand x y r n := by
  unfold posCand Scalar.select
  split
  · exact le_trans negFill_le_zeroW (le_max_right _ _)
  · exact le_rfl

/-- A label equals itself, so the diagonal candidate of the minimum is the positive fill. -/
theorem negCand_diag (r : Fin 8192) : negCand x y r r = posFill := by
  simp [negCand, same, Scalar.select, IntOp.cmpi]

/-- Every column is column q of tile j for j its quotient and q its remainder by 2048. -/
theorem col_surj (n : Fin 8192) : ∃ (j : Fin 4) (q : Fin 2048), col j q = n :=
  ⟨⟨n.val / 2048, by omega⟩, ⟨n.val % 2048, by omega⟩, Fin.ext (by simp only [col]; omega)⟩

/-- Each tile maximum is one of the arguments of the running maximum. -/
theorem tilePos_le_runPos (r : Fin 8192) (j : Fin 4) : tilePos x y r j ≤ runPos x y r := by
  unfold runPos
  match j with
  | ⟨0, _⟩ => exact le_trans (le_max_right _ _) (le_trans (le_max_left _ _) (le_trans (le_max_left _ _) (le_max_left _ _)))
  | ⟨1, _⟩ => exact le_trans (le_max_right _ _) (le_trans (le_max_left _ _) (le_max_left _ _))
  | ⟨2, _⟩ => exact le_trans (le_max_right _ _) (le_max_left _ _)
  | ⟨3, _⟩ => exact le_max_right _ _

/-- Each tile minimum is one of the arguments of the running minimum. -/
theorem runNeg_le_tileNeg (r : Fin 8192) (j : Fin 4) : runNeg x y r ≤ tileNeg x y r j := by
  unfold runNeg
  match j with
  | ⟨0, _⟩ => exact le_trans (le_trans (le_trans (min_le_left _ _) (min_le_left _ _)) (min_le_left _ _)) (min_le_right _ _)
  | ⟨1, _⟩ => exact le_trans (le_trans (min_le_left _ _) (min_le_left _ _)) (min_le_right _ _)
  | ⟨2, _⟩ => exact le_trans (min_le_left _ _) (min_le_right _ _)
  | ⟨3, _⟩ => exact min_le_right _ _

/-- The tiled running maximum is the whole maximum. -/
theorem runPos_eq_hardPos (r : Fin 8192) : runPos x y r = hardPos x y r := by
  -- a candidate is below the whole maximum, which is a fold of max over all columns
  have hc : ∀ n, posCand x y r n ≤ hardPos x y r := fun n =>
    (Finset.le_fold_max _).mpr (Or.inr ⟨n, Finset.mem_univ n, le_rfl⟩)
  apply le_antisymm
  · -- the fill and the four tile maxima are each below the whole maximum
    have ht : ∀ j, tilePos x y r j ≤ hardPos x y r := fun j =>
      (Finset.fold_max_le _).mpr ⟨by rw [botW_eq]; exact bot_le, fun q _ => hc (col j q)⟩
    have hf : negFill ≤ hardPos x y r := le_trans (negFill_le_posCand x y r r) (hc r)
    exact max_le (max_le (max_le (max_le hf (ht 0)) (ht 1)) (ht 2)) (ht 3)
  · -- every column lies in one tile, whose maximum is below the running maximum
    refine (Finset.fold_max_le _).mpr ⟨by rw [botW_eq]; exact bot_le, fun n _ => ?_⟩
    obtain ⟨j, q, rfl⟩ := col_surj n
    exact le_trans ((Finset.le_fold_max _).mpr (Or.inr ⟨q, Finset.mem_univ q, le_rfl⟩))
      (tilePos_le_runPos x y r j)

/-- The tiled running minimum is the whole minimum. -/
theorem runNeg_eq_hardNeg (r : Fin 8192) : runNeg x y r = hardNeg x y r := by
  -- the whole minimum, a fold of min over all columns, is below every candidate
  have hc : ∀ n, hardNeg x y r ≤ negCand x y r n := fun n =>
    (Finset.fold_min_le _).mpr (Or.inr ⟨n, Finset.mem_univ n, le_rfl⟩)
  apply le_antisymm
  · -- every column lies in one tile, whose minimum is above the running minimum
    refine (Finset.le_fold_min _).mpr ⟨by rw [topW_eq]; exact le_top, fun n _ => ?_⟩
    obtain ⟨j, q, rfl⟩ := col_surj n
    exact le_trans (runNeg_le_tileNeg x y r j)
      ((Finset.fold_min_le _).mpr (Or.inr ⟨q, Finset.mem_univ q, le_rfl⟩))
  · -- the whole minimum is below the fill (its diagonal candidate) and below the four tile minima
    have ht : ∀ j, hardNeg x y r ≤ tileNeg x y r j := fun j =>
      (Finset.le_fold_min _).mpr ⟨by rw [topW_eq]; exact le_top, fun q _ => hc (col j q)⟩
    have hf : hardNeg x y r ≤ posFill := (negCand_diag x y r) ▸ hc r
    exact le_min (le_min (le_min (le_min hf (ht 0)) (ht 1)) (ht 2)) (ht 3)

end Cert.TripletSpec

end
-- ==== Proof.KI.Pay.lean ====
/-
  The kernel body's payloads read at an index, at the extended reals.

  The row tile x0 is [512, 512], the column tile x1 is [2048, 512]; x2 and x3 carry the squared norms of the rows of
  the two tiles as a column [512, 1] and a row [1, 2048]; x4 and x5 carry the labels likewise. At (p, q) the body's
  distance is max(x2 p + x3 q − 2·Σ_d x0 p d · x1 q d, 0) and its label comparison is the bit "x4 p = x5 q"; the
  tile's hardest positive at row p is the maximum over q of (the distance where the labels agree, the fill −1e30
  elsewhere) from −∞, the hardest negative the minimum over q of (the fill +1e30 where they agree, the distance
  elsewhere) from +∞. The running values are folded by max and min, and the hinge is max(a + 1 − b, 0).
-/
import proofs.«144779_j15917148799620_1_alg».proof.Proof.Gen.KernelIdeal.Skeleton
import proofs.«144779_j15917148799620_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.KernelIdeal.Tri

open Idealize.ShloMosaic Idealize.ShloMosaic.ValueIdx Cert.KernelIdeal Cert.KernelIdeal.Gen Cert.TripletSpec

/-! ## Layout operations of the body at coordinates -/

section Layout
variable {α : Type}

/-- A column [a, 1] broadcast to [a, b] reads, at (p, c), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- A `multi_reduction <minimumf>` over one axis at the extended reals: the fold of `min` from the accumulator's value
    over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The body's product of the two tiles at an index -/

theorem mm_lhs_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem mm_lhs_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem mm_rhs_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem mm_rhs_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product of the row tile with the column tile, contracted over the feature axis of both, into the zero
    accumulator: at (p, q) the sum over d of a p d · b q d. -/
theorem matmul_tile_apply (a : FVec Ideal S512x512 .bf16) (b : FVec Ideal S2048x512 .bf16) (p : Fin 512) (q : Fin 2048) :
    matmul dot_S512x512_S2048x512_S512x2048_1_1_0_0_n_n none a b (constant (F := Ideal) S512x2048 .f32 0x00000000#32) (ix2 p q)
      = ∑ d : Fin 512, a (ix2 p d) * b (ix2 q d) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k := funext fun a => Fin.ext (by
    match a with
    | ⟨0, _⟩ => exact mm_lhs_0 _ _
    | ⟨1, _⟩ => exact (mm_lhs_1 _ _).trans hk)
  have er : dot_S512x512_S2048x512_S512x2048_1_1_0_0_n_n.rhsIdx (ix2 p q) ((contrEquiv1 dot_S512x512_S2048x512_S512x2048_1_1_0_0_n_n 512 rfl rfl).symm k) = ix2 q k := funext fun a => Fin.ext (by
    match a with
    | ⟨0, _⟩ => exact mm_rhs_0 _ _
    | ⟨1, _⟩ => exact (mm_rhs_1 _ _).trans hk)
  rw [el, er]

/-! ## The distance, the label comparison and the two tile extrema -/

section Blocks
variable (x0 : Vec Ideal S512x512 .bf16) (x1 : Vec Ideal S2048x512 .bf16) (x2 : Vec Ideal S512x1 .f32)
  (x3 : Vec Ideal S1x2048 .f32) (x4 : Vec Ideal S512x1 .i32) (x5 : Vec Ideal S1x2048 .i32)

/-- the floored squared distance of row p of the row tile and row q of the column tile, from the blocks -/
def blkDist (p : Fin 512) (q : Fin 2048) : EReal :=
  max ((x2 (ix2 p 0) + x3 (ix2 0 q)) - twoW * ∑ d : Fin 512, x0 (ix2 p d) * x1 (ix2 q d)) zeroW

/-- equal labels of row p of the row tile and row q of the column tile, as the comparison's bit -/
def blkSame (p : Fin 512) (q : Fin 2048) : BitVec 1 := IntOp.cmpi .eq (x4 (ix2 p 0)) (x5 (ix2 0 q))

theorem pay6_apply (p : Fin 512) (q : Fin 2048) :
    k0_pay6 (F := Ideal) x0 x1 x2 x3 (ix2 p q) = blkDist x0 x1 x2 x3 p q := by
  unfold k0_pay6
  simp only [shapeCast_self]
  show max ((broadcastTo S512x2048 x2 broadcasts_S512x1_S512x2048 (ix2 p q)
      + broadcastTo S512x2048 x3 broadcasts_S1x2048_S512x2048 (ix2 p q))
      - twoW * matmul dot_S512x512_S2048x512_S512x2048_1_1_0_0_n_n none x0 x1 (constant (F := Ideal) S512x2048 .f32 0x00000000#32) (ix2 p q)) zeroW = _
  rw [broadcastTo_a1_ab_apply, broadcastTo_1b_ab_apply, matmul_tile_apply]
  rfl

theorem pay7_apply (p : Fin 512) (q : Fin 2048) :
    k0_pay7 (F := Ideal) x4 x5 (ix2 p q) = blkSame x4 x5 p q := by
  unfold k0_pay7
  simp only [shapeCast_self]
  show IntOp.cmpi .eq (broadcastTo S512x2048 x4 broadcasts_S512x1_S512x2048 (ix2 p q))
      (broadcastTo S512x2048 x5 broadcasts_S1x2048_S512x2048 (ix2 p q)) = _
  rw [broadcastTo_a1_ab_apply, broadcastTo_1b_ab_apply]
  rfl

end Blocks

section Extrema
variable (x0 : Vec Ideal S512x512 .bf16) (x1 : Vec Ideal S2048x512 .bf16) (x2 : Vec Ideal S512x1 .f32)
  (x3 : Vec Ideal S1x2048 .f32) (x4 : Vec Ideal S512x1 .i32) (x5 : Vec Ideal S1x2048 .i32)

/-- Row p of the reduced shape with the lane coordinate q put back is (p, q). -/
theorem lift_row (p : Fin 512) (q : Fin 2048) : reduces_S512x2048_S512.lift (ix1 p) q = ix2 p q :=
  funext fun a => Fin.ext (by
    match a with
    | ⟨0, _⟩ => rfl
    | ⟨1, _⟩ => rfl)

theorem pay8_apply (p : Fin 512) :
    k0_pay8 (F := Ideal) x0 x1 x2 x3 x4 x5 (ix2 p 0)
      = (Finset.univ : Finset (Fin 2048)).fold max botW
          (fun q => Scalar.select (blkSame x4 x5 p q) (blkDist x0 x1 x2 x3 p q) negFill) := by
  unfold k0_pay8
  refine (shapeCast_a_a1_apply _ shapeCasts_S512_S512x1 p 0).trans ?_
  refine (Ideal.multiReduction_maximumf_single _ _ reduces_S512x2048_S512 _ _ (ix1 p)).trans ?_
  show (Finset.univ : Finset (Fin 2048)).fold max botW (fun q : Fin 2048 =>
      select (k0_pay7 (F := Ideal) x4 x5) (k0_pay6 (F := Ideal) x0 x1 x2 x3) (broadcast S512x2048 negFill)
        (reduces_S512x2048_S512.lift (ix1 p) q)) = _
  refine Finset.fold_congr fun (q : Fin 2048) _ => ?_
  rw [lift_row, select_apply, pay7_apply, pay6_apply, broadcast_apply]

theorem pay9_apply (p : Fin 512) :
    k0_pay9 (F := Ideal) x0 x1 x2 x3 x4 x5 (ix2 p 0)
      = (Finset.univ : Finset (Fin 2048)).fold min topW
          (fun q => Scalar.select (blkSame x4 x5 p q) posFill (blkDist x0 x1 x2 x3 p q)) := by
  unfold k0_pay9
  refine (shapeCast_a_a1_apply _ shapeCasts_S512_S512x1 p 0).trans ?_
  refine (multiReduction_minimumf_single _ _ reduces_S512x2048_S512 _ _ (ix1 p)).trans ?_
  show (Finset.univ : Finset (Fin 2048)).fold min topW (fun q : Fin 2048 =>
      select (k0_pay7 (F := Ideal) x4 x5) (broadcast S512x2048 posFill) (k0_pay6 (F := Ideal) x0 x1 x2 x3)
        (reduces_S512x2048_S512.lift (ix1 p) q)) = _
  refine Finset.fold_congr fun (q : Fin 2048) _ => ?_
  rw [lift_row, select_apply, pay7_apply, pay6_apply, broadcast_apply]

end Extrema

/-! ## The running folds, the hinge and the two fills -/

theorem pay1_apply (v31 v34 : Vec Ideal S512x1 .f32) (i : S512x1.Idx) :
    k0_pay1 (F := Ideal) v31 v34 i = max (v34 i) (v31 i) := by
  unfold k0_pay1
  rw [shapeCast_self]
  rfl

theorem pay2_apply (v33 v39 : Vec Ideal S512x1 .f32) (i : S512x1.Idx) :
    k0_pay2 (F := Ideal) v33 v39 i = min (v39 i) (v33 i) := by
  unfold k0_pay2
  rw [shapeCast_self]
  rfl

theorem pay3_apply (v47 v50 : Vec Ideal S512x1 .f32) (i : S512x1.Idx) :
    k0_pay3 (F := Ideal) v47 v50 i = max ((v47 i + oneW) - v50 i) zeroW := rfl

theorem pay4_apply (i : S512x1.Idx) : k0_pay4 (F := Ideal) i = negFill := by
  unfold k0_pay4
  rw [shapeCast_self]
  rfl

theorem pay5_apply (i : S512x1.Idx) : k0_pay5 (F := Ideal) i = posFill := by
  unfold k0_pay5
  rw [shapeCast_self]
  rfl

end Cert.KernelIdeal.Tri

end
-- ==== Proof.KI.Tiles.lean ====
/-
  The running extrema point by point, and the output array, at the extended reals.
  With x the rows of the f32 argument and y the labels: at point t = 4·i + j, row p of the tile is anchor
  r = 512·i + p, and after the body the running maximum's column holds at p the fold over the column tiles 0 … j of the
  tile maxima of r, started at the fill; likewise the running minimum.  At j = 3 the output block holds the hinge of
  the two folds, which is block i of the array  r ↦ max(runPos r + 1 − runNeg r, 0);  the sixteen output blocks tile
  the array.
-/
import proofs.«144779_j15917148799620_1_alg».proof.Proof.KI.Blocks
import proofs.«144779_j15917148799620_1_alg».proof.Proof.KI.Pieces
import proofs.«144779_j15917148799620_1_alg».proof.Proof.KI.Pay
import proofs.«144779_j15917148799620_1_alg».proof.Proof.Spec

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.TripletSpec

variable (V : (c : Dev nD) → (b : Ref sig .tc) → Buf (Elt Ideal) ((c : Thread nD τ).loc b))
variable (c : Dev nD) (x : Fin 8192 → Fin 512 → EReal) (y : Fin 8192 → BitVec 32)

/-- What the region finds in its arrays, in terms of x and y. -/
structure Entry : Prop where
  hx : ∀ (r : Fin 8192) (d : Fin 512), V c main_v0 (ix2 r d) = x r d
  hsc : ∀ r : Fin 8192, V c main_v3 (ix2 r 0) = sqn x r
  hsr : ∀ n : Fin 8192, V c main_v4 (ix2 0 n) = sqn x n
  hyc : ∀ r : Fin 8192, V c main_arg1 (ix2 r 0) = y r
  hyr : ∀ n : Fin 8192, V c main_v5 (ix2 0 n) = y n

/-- Column tile j (as a number, read mod 4). -/
def tileOf (j : ℕ) : Fin 4 := ⟨j % 4, Nat.mod_lt _ (by decide)⟩

/-- The fold of the tile maxima of anchor r over the column tiles 0 … j, from the fill. -/
def accPos (r : Fin 8192) : ℕ → EReal
  | 0 => max negFill (tilePos x y r (tileOf 0))
  | j + 1 => max (accPos r j) (tilePos x y r (tileOf (j + 1)))
def accNeg (r : Fin 8192) : ℕ → EReal
  | 0 => min posFill (tileNeg x y r (tileOf 0))
  | j + 1 => min (accNeg r j) (tileNeg x y r (tileOf (j + 1)))

theorem accPos_three (r : Fin 8192) : accPos x y r 3 = runPos x y r := rfl
theorem accNeg_three (r : Fin 8192) : accNeg x y r 3 = runNeg x y r := rfl

/-! ## The tile's row maximum and row minimum at a point -/

section Tile
variable {V c x y} (hE : Entry V c x y) (t : Fin cfg0.N) (p : Fin 512) (r : Fin 8192) (hr : r.val = 512 * (t.val / 4) + p.val)
include hE hr

theorem blkDist_at (q : Fin 2048) :
    blkDist (iblk V c 0 t) (iblk V c 1 t) (iblk V c 2 t) (iblk V c 3 t) p q = Cert.TripletSpec.dist x r (col (tileOf t.val) q) := by
  unfold blkDist Cert.TripletSpec.dist gram
  rw [iblk2_apply V c t p r hr, iblk3_apply V c t q (col (tileOf t.val) q) rfl, hE.hsc, hE.hsr]
  congr 3
  exact Finset.sum_congr rfl fun d _ => by
    rw [iblk0_apply V c t p d r hr, iblk1_apply V c t q d (col (tileOf t.val) q) rfl, hE.hx, hE.hx]

theorem blkSame_at (q : Fin 2048) :
    blkSame (iblk V c 4 t) (iblk V c 5 t) p q = same y r (col (tileOf t.val) q) := by
  unfold blkSame same
  rw [iblk4_apply V c t p r hr, iblk5_apply V c t q (col (tileOf t.val) q) rfl, hE.hyc, hE.hyr]

theorem tileMax_at :
    k0_pay8 (F := Ideal) (iblk V c 0 t) (iblk V c 1 t) (iblk V c 2 t) (iblk V c 3 t) (iblk V c 4 t) (iblk V c 5 t) (ix2 p 0)
      = tilePos x y r (tileOf t.val) := by
  refine (pay8_apply (iblk V c 0 t) (iblk V c 1 t) (iblk V c 2 t) (iblk V c 3 t) (iblk V c 4 t) (iblk V c 5 t) p).trans ?_
  unfold tilePos posCand
  exact congrArg (fun f => Finset.fold max botW f Finset.univ) (funext fun q => by rw [blkDist_at hE t p r hr q, blkSame_at hE t p r hr q])

theorem tileMin_at :
    k0_pay9 (F := Ideal) (iblk V c 0 t) (iblk V c 1 t) (iblk V c 2 t) (iblk V c 3 t) (iblk V c 4 t) (iblk V c 5 t) (ix2 p 0)
      = tileNeg x y r (tileOf t.val) := by
  refine (pay9_apply (iblk V c 0 t) (iblk V c 1 t) (iblk V c 2 t) (iblk V c 3 t) (iblk V c 4 t) (iblk V c 5 t) p).trans ?_
  unfold tileNeg negCand
  exact congrArg (fun f => Finset.fold min topW f Finset.univ) (funext fun q => by rw [blkDist_at hE t p r hr q, blkSame_at hE t p r hr q])

end Tile

end Cert.KernelIdeal.Tri

end
-- ==== Proof.KI.Steps.lean ====
/-
  One point of the recursion, as the body's arithmetic on the point's blocks: on a first column tile the columns are
  the fills folded with the tile's extrema; on a later tile, what the point before left folded with them; on the last
  tile the output block is the hinge of the folded columns.
-/
import proofs.«144779_j15917148799620_1_alg».proof.Proof.KI.Pieces

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (t : Fin cfg0.N) (prev : Vec F S512x1 .f32 × Vec F S512x1 .f32)

theorem stepAt_max_first (h0 : t.val % 4 = 0) :
    (stepAt V c t prev).2.1 = k0_pay1 (k0_pay8 (iblk V c 0 t) (iblk V c 1 t) (iblk V c 2 t) (iblk V c 3 t) (iblk V c 4 t) (iblk V c 5 t)) (k0_pay4 (F := F)) := by
  unfold stepAt; rw [dif_pos h0]; dsimp only; exact maxReset_eq (F := F) c _ _ _ _ _ _ _ _ _ _ _ _ _ _ _ _ _ _ _ _ _ _ _ _ _ _ _

theorem stepAt_min_first (h0 : t.val % 4 = 0) :
    (stepAt V c t prev).2.2 = k0_pay2 (k0_pay9 (iblk V c 0 t) (iblk V c 1 t) (iblk V c 2 t) (iblk V c 3 t) (iblk V c 4 t) (iblk V c 5 t)) (k0_pay5 (F := F)) := by
  unfold stepAt; rw [dif_pos h0]; dsimp only; exact minReset_eq (F := F) c _ _ _ _ _ _ _ _ _ _ _ _ _ _ _ _ _ _ _ _ _ _ _ _ _ _ _

theorem stepAt_max_later (h0 : ¬t.val % 4 = 0) :
    (stepAt V c t prev).2.1 = k0_pay1 (k0_pay8 (iblk V c 0 t) (iblk V c 1 t) (iblk V c 2 t) (iblk V c 3 t) (iblk V c 4 t) (iblk V c 5 t)) prev.1 := by
  unfold stepAt; rw [dif_neg h0]
  by_cases h1 : t.val % 4 = 3
  · rw [dif_pos h1]; dsimp only; exact maxEmit_eq (F := F) c _ _ _ _ _ _ _ _ _ _ _ _ _ _ _ _ _ _ _ _ _ _ _ _ _ _ _ _ _
  · rw [dif_neg h1]; dsimp only; exact maxFold_eq (F := F) c _ _ _ _ _ _ _ _ _ _ _ _ _ _ _ _ _ _ _ _ _ _ _ _ _ _ _ _ _

theorem stepAt_min_later (h0 : ¬t.val % 4 = 0) :
    (stepAt V c t prev).2.2 = k0_pay2 (k0_pay9 (iblk V c 0 t) (iblk V c 1 t) (iblk V c 2 t) (iblk V c 3 t) (iblk V c 4 t) (iblk V c 5 t)) prev.2 := by
  unfold stepAt; rw [dif_neg h0]
  by_cases h1 : t.val % 4 = 3
  · rw [dif_pos h1]; dsimp only; exact minEmit_eq (F := F) c _ _ _ _ _ _ _ _ _ _ _ _ _ _ _ _ _ _ _ _ _ _ _ _ _ _ _ _ _
  · rw [dif_neg h1]; dsimp only; exact minFold_eq (F := F) c _ _ _ _ _ _ _ _ _ _ _ _ _ _ _ _ _ _ _ _ _ _ _ _ _ _ _ _ _

theorem stepAt_out_last (h0 : ¬t.val % 4 = 0) (h1 : t.val % 4 = 3) :
    (stepAt V c t prev).1 = k0_pay3 (k0_pay1 (k0_pay8 (iblk V c 0 t) (iblk V c 1 t) (iblk V c 2 t) (iblk V c 3 t) (iblk V c 4 t) (iblk V c 5 t)) prev.1) (k0_pay2 (k0_pay9 (iblk V c 0 t) (iblk V c 1 t) (iblk V c 2 t) (iblk V c 3 t) (iblk V c 4 t) (iblk V c 5 t)) prev.2) := by
  unfold stepAt; rw [dif_neg h0, dif_pos h1]; dsimp only; exact outEmit_eq (F := F) c _ _ _ _ _ _ _ _ _ _ _ _ _ _ _ _ _ _ _ _ _ _ _ _ _ _ _ _ _

/-- The recursion at a point, whichever it is: the step from what the point before left (anything at the first). -/
theorem colsAt_step (n : ℕ) (hn : n + 1 < cfg0.N) :
    colsAt V c (n + 1) hn = stepAt V c ⟨n + 1, hn⟩ (colsAt V c n (Nat.lt_of_succ_lt hn)).2 := rfl
theorem colsAt_zero (hn : 0 < cfg0.N) : colsAt V c 0 hn = stepAt V c ⟨0, hn⟩ (idleOut, idleOut) := rfl

end Cert.KernelIdeal.Tri

end
-- ==== Proof.KI.Fold.lean ====
/-
  The induction over the points, and the output array.
-/
import proofs.«144779_j15917148799620_1_alg».proof.Proof.KI.Tiles
import proofs.«144779_j15917148799620_1_alg».proof.Proof.KI.Steps

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.TripletSpec

variable {V : (c : Dev nD) → (b : Ref sig .tc) → Buf (Elt Ideal) ((c : Thread nD τ).loc b)}
variable {c : Dev nD} {x : Fin 8192 → Fin 512 → EReal} {y : Fin 8192 → BitVec 32} (hE : Entry V c x y)
include hE

/-- After the body at position n, row p of the two scratch columns holds the folds over the column tiles 0 … n % 4 of
    anchor 512·(n / 4) + p. -/
theorem cols_inv : ∀ (n : ℕ) (hn : n < cfg0.N) (p : Fin 512) (r : Fin 8192), r.val = 512 * (n / 4) + p.val →
    (colsAt V c n hn).2.1 (ix2 p 0) = accPos x y r (n % 4) ∧ (colsAt V c n hn).2.2 (ix2 p 0) = accNeg x y r (n % 4)
  | 0, hn, p, r, hr => by
    rw [colsAt_zero V c hn, stepAt_max_first V c ⟨0, hn⟩ _ rfl, stepAt_min_first V c ⟨0, hn⟩ _ rfl]
    rw [pay1_apply, pay2_apply, pay4_apply, pay5_apply, tileMax_at hE ⟨0, hn⟩ p r hr, tileMin_at hE ⟨0, hn⟩ p r hr]
    exact ⟨rfl, rfl⟩
  | n + 1, hn, p, r, hr => by
    rw [colsAt_step V c n hn]
    by_cases h0 : (n + 1) % 4 = 0
    · rw [stepAt_max_first V c ⟨n + 1, hn⟩ _ h0, stepAt_min_first V c ⟨n + 1, hn⟩ _ h0]
      rw [pay1_apply, pay2_apply, pay4_apply, pay5_apply, tileMax_at hE ⟨n + 1, hn⟩ p r hr, tileMin_at hE ⟨n + 1, hn⟩ p r hr]
      have ht : tileOf (n + 1) = tileOf 0 := Fin.ext (by show (n + 1) % 4 = 0 % 4; omega)
      rw [h0, ht]
      exact ⟨rfl, rfl⟩
    · rw [stepAt_max_later V c ⟨n + 1, hn⟩ _ h0, stepAt_min_later V c ⟨n + 1, hn⟩ _ h0]
      rw [pay1_apply, pay2_apply, tileMax_at hE ⟨n + 1, hn⟩ p r hr, tileMin_at hE ⟨n + 1, hn⟩ p r hr]
      have hq : (n + 1) / 4 = n / 4 := by omega
      obtain ⟨ih1, ih2⟩ := cols_inv n (Nat.lt_of_succ_lt hn) p r (by rw [← hq]; exact hr)
      rw [ih1, ih2]
      have hm : (n + 1) % 4 = n % 4 + 1 := by omega
      have ht : tileOf (n + 1) = tileOf (n % 4 + 1) := Fin.ext (by show (n + 1) % 4 = (n % 4 + 1) % 4; omega)
      rw [hm, ht]
      exact ⟨rfl, rfl⟩

/-- The per-anchor hinge array. -/
def hingeArr (x : Fin 8192 → Fin 512 → EReal) (y : Fin 8192 → BitVec 32) : S8192x1.Idx → EReal :=
  fun i => hinge (runPos x y ⟨(i 0).val, idx2_lt0 i⟩) (runNeg x y ⟨(i 0).val, idx2_lt0 i⟩)

/-- On a last column tile, row p of the output's buffer holds the hinge of anchor 512·(t / 4) + p. -/
theorem out_at (t : Fin cfg0.N) (h1 : t.val % 4 = 3) (p : Fin 512) (r : Fin 8192) (hr : r.val = 512 * (t.val / 4) + p.val) :
    (colsAt V c t.val t.isLt).1 (ix2 p 0) = hinge (runPos x y r) (runNeg x y r) := by
  have h0 : ¬t.val % 4 = 0 := by omega
  have hz : t.val ≠ 0 := by omega
  rw [colsAt_pos V c t hz, stepAt_out_last V c t _ h0 h1]
  rw [pay3_apply, pay1_apply, pay2_apply, tileMax_at hE t p r hr, tileMin_at hE t p r hr]
  have hq : (t.val - 1) / 4 = t.val / 4 := by omega
  obtain ⟨ih1, ih2⟩ := cols_inv hE (t.val - 1) (Nat.lt_of_le_of_lt (Nat.sub_le _ _) t.isLt) p r (by rw [hq]; exact hr)
  rw [ih1, ih2]
  have hm : (t.val - 1) % 4 = 2 := by omega
  have ht : tileOf t.val = tileOf 3 := Fin.ext (by show t.val % 4 = 3 % 4; omega)
  rw [hm, ht]
  rfl

/-- An index of the output array is in point t's block iff its row is in row tile t / 4. -/
theorem mem_blk6 (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v6).slice (win0_6.rect t)).set ↔ _
  rw [View.set_slice_whole, Rect.mem_set_unit]
  exact Iff.rfl

/-- What a last-tile point writes back is its block of the hinge array. -/
theorem flushed6_eq (t : Fin cfg0.N) (hf : (cfg0.win 6).flush t = true) :
    (dat V c).flushed 6 t = ((cfg0.win 6).blk t).view.read (Elt Ideal) (hingeArr x y) := by
  have h1 : t.val % 4 = 3 := (flush0_6 t).mp hf
  show (cfg0.win 6).cut (grid0.coords t) ((dat V c).after 6 t) = _
  rw [after6]
  funext j
  obtain ⟨p, q, rfl⟩ : ∃ (p : Fin 512) (q : Fin 1), j = ix2 p q := ⟨j 0, j 1, eq_ix2 j⟩
  obtain rfl : q = 0 := Subsingleton.elim _ _
  have hN : t.val < 64 := lt_of_lt_of_eq t.isLt (show cfg0.N = 64 from N_0)
  have e6 := (idx_facts t).2.2.2.2.2.2.2.2.2.2.2.2
  show (colsAt V c t.val t.isLt).1 (ix2 p 0) = hingeArr x y (((cfg0.win 6).blk t).view.emb (ix2 p 0))
  rw [out_at hE t h1 p ⟨512 * (t.val / 4) + p.val, by omega⟩ rfl]
  unfold hingeArr
  have hrow : ((((cfg0.win 6).blk t).view.emb (ix2 p 0)) 0).val = 512 * (t.val / 4) + p.val := by
    show win0_6.index t (0 : Fin 2) * 512 + 1 * p.val = _
    rw [e6.1]; omega
  congr 2 <;> exact Fin.ext hrow.symm

/-- The output array after the region is the hinge array. -/
theorem out_eq : (dat V c).arrAt 6 cfg0.N = hingeArr x y := by
  refine (dat V c).arrAt_eq_of_cover 6 (hingeArr x y) (fun t hf => flushed6_eq hE t hf) fun i => ?_
  have hi0 : (i 0).val < 8192 := idx2_lt0 i
  have hi1 : (i 1).val < 1 := idx2_lt1 i
  have hN : cfg0.N = 64 := N_0
  refine ⟨⟨4 * ((i 0).val / 512) + 3, by omega⟩, (flush0_6 _).mpr (by show (4 * ((i 0).val / 512) + 3) % 4 = 3; omega), ?_⟩
  rw [mem_blk6 hE]
  have e6 := (idx_facts ⟨4 * ((i 0).val / 512) + 3, by omega⟩).2.2.2.2.2.2.2.2.2.2.2.2
  intro a
  match a with
  | ⟨0, _⟩ =>
    show win0_6.index _ (0 : Fin 2) * 512 ≤ (i 0).val ∧ (i 0).val < win0_6.index _ (0 : Fin 2) * 512 + 512
    rw [e6.1]; show (4 * ((i 0).val / 512) + 3) / 4 * 512 ≤ (i 0).val ∧ (i 0).val < (4 * ((i 0).val / 512) + 3) / 4 * 512 + 512; omega
  | ⟨1, _⟩ =>
    show win0_6.index _ (1 : Fin 2) * 1 ≤ (i 1).val ∧ (i 1).val < win0_6.index _ (1 : Fin 2) * 1 + 1
    rw [e6.2]; omega

end Cert.KernelIdeal.Tri

end
-- ==== Proof.KI.Body.lean ====
/-
  The body obligation of the pipeline: at every point the body, called on the current staging buffers and the two
  scratch columns, runs and leaves what the proof data name.  By the point's position in its row (t mod 4): the
  first-tile run from columns at anything, the middle-tile run and the last-tile run from the columns the point
  before left.
-/
import proofs.«144779_j15917148799620_1_alg».proof.Proof.KI.Points

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 4 = 0
  · have h1 : ¬t.val % 4 = 3 := by omega
    rw [show (dat V c).leavesExact 0 t = owns (c : Thread nD τ) (ms0 t) fullShare ((dat V c).after 0 t) from by
      unfold Dat.leavesExact; rw [live0 t], after0]
    rw [show (dat V c).leavesExact 1 t = owns (c : Thread nD τ) (ms1 t) fullShare ((dat V c).after 1 t) from by
      unfold Dat.leavesExact; rw [live1 t], after1]
    rw [show (dat V c).leavesExact 2 t = owns (c : Thread nD τ) (ms2 t) fullShare ((dat V c).after 2 t) from by
      unfold Dat.leavesExact; rw [live2 t], after2]
    rw [show (dat V c).leavesExact 3 t = owns (c : Thread nD τ) (ms3 t) fullShare ((dat V c).after 3 t) from by
      unfold Dat.leavesExact; rw [live3 t], after3]
    rw [show (dat V c).leavesExact 4 t = owns (c : Thread nD τ) (ms4 t) fullShare ((dat V c).after 4 t) from by
      unfold Dat.leavesExact; rw [live4 t], after4]
    rw [show (dat V c).leavesExact 5 t = owns (c : Thread nD τ) (ms5 t) fullShare ((dat V c).after 5 t) from by
      unfold Dat.leavesExact; rw [live5 t], after5]
    rw [Dat.leavesExact_idle (dat V c) 6 t (idle6_of_not_last t (fun h => h1 ((isLast_iff t).mp h))) (noFlush6_of_not_last t (fun h => h1 ((isLast_iff t).mp h)))]
    have hcols : (colsAt V c t.val t.isLt).2 = (stepAt V c t (idleOut, idleOut)).2 := by
      by_cases hz : t.val = 0
      · obtain ⟨n, hn⟩ := t; obtain rfl : n = 0 := hz; rfl
      · rw [colsAt_pos V c t hz]; exact congrArg Prod.snd (stepAt_first V c t h0 _ _)
    rw [hcols]; unfold stepAt; rw [dif_pos h0]; dsimp only
    unfold maxReset minReset; (try dsimp only)
    by_cases hz : t.val = 0
    · rw [Phi_castSucc V c t, PhiS_zero V c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxReset_cover c _ _ _ _ _ _ _ _ _ _ _ _ _ _ _ _ _ _ _ _ _ _ _ _ _ _ _)
          · unfold owns; iexists _; isplitr
            swap; · iexact HS1
            ipureintro; exact View.read_writes_of_cover _ _ _ _ _ (minReset_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxReset_cover c _ _ _ _ _ _ _ _ _ _ _ _ _ _ _ _ _ _ _ _ _ _ _ _ _ _ _)
          · unfold owns; iexists _; isplitr
            swap; · iexact HS1
            ipureintro; exact View.read_writes_of_cover _ _ _ _ _ (minReset_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h1 : t.val % 4 = 3
    · skip
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live5 t], after5]
      rw [show (dat V c).leavesExact 6 t = owns (c : Thread nD τ) (ms6 t) fullShare ((dat V c).after 6 t) from by
        unfold Dat.leavesExact; rw [live6_of_last t ((isLast_iff t).mpr h1)], after6]
      rw [colsAt_pos V c t hz]; unfold stepAt; rw [dif_neg h0, dif_pos h1]; dsimp only
      unfold outEmit maxEmit minEmit; (try dsimp only)
      rw [Phi_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runEmit c (grid0.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxEmit_cover c _ _ _ _ _ _ _ _ _ _ _ _ _ _ _ _ _ _ _ _ _ _ _ _ _ _ _ _ _)
          · unfold owns; iexists _; isplitr
            swap; · iexact HS1
            ipureintro; exact View.read_writes_of_cover _ _ _ _ _ (minEmit_cover c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outEmit_cover c _ _ _ _ _ _ _ _ _ _ _ _ _ _ _ _ _ _ _ _ _ _ _ _ _ _ _ _ _)
    · skip
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live5 t], after5]
      rw [Dat.leavesExact_idle (dat V c) 6 t (idle6_of_not_last t (fun h => h1 ((isLast_iff t).mp h))) (noFlush6_of_not_last t (fun h => h1 ((isLast_iff t).mp h)))]
      rw [colsAt_pos V c t hz]; unfold stepAt; rw [dif_neg h0, dif_neg h1]; dsimp only
      unfold maxFold minFold; (try dsimp only)
      rw [Phi_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runFold c (grid0.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (maxFold_cover c _ _ _ _ _ _ _ _ _ _ _ _ _ _ _ _ _ _ _ _ _ _ _ _ _ _ _ _ _)
          · unfold owns; iexists _; isplitr
            swap; · iexact HS1
            ipureintro; exact View.read_writes_of_cover _ _ _ _ _ (minFold_cover c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back: the columns' named contents are forgotten. -/
theorem hout (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1⟩, Hg⟩
  isplitl [HS0 HS1]
  · isplitl [HS0]
    · iexists _; iexact HS0
    · iexists _; iexact HS1
  iexact Hg

end Cert.KernelIdeal.Tri

end
-- ==== Proof.KI.Shares.lean ====
/-
  The launch: @main is the host operations before the region (the bf16 copy of x, the squared norms as a column and as
  a row, the labels as a row), the region, and the host operations after it (the sum of the per-anchor hinges and its
  division by the batch size).  The thread state between two segments is "every unscoped buffer whole at the
  boundary's contents".  At the region's entry the arrays the windows read are split out of it; the bf16 copy of x is
  read by TWO windows (the row tile and the column tile), so its full share is cut into its two halves, one per window,
  and at the exit the two halves, at equal contents, are joined back.  The post: every unscoped buffer at the last
  boundary's contents.
-/
import proofs.«144779_j15917148799620_1_alg».proof.Proof.KI.Body

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The arrays at their shares -/

section Shares

variable (V : (c : Dev nD) → (b : Ref sig .tc) → Buf (Elt F) ((c : Thread nD τ).loc b))

/-- The distinct buffers behind the windows' arrays, listed. -/
theorem arrBufs_chain (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v3) ↦{fullShare} W main_v3)
        ∗ (((c : Thread nD τ).loc main_v4) ↦{fullShare} W main_v4) ∗ (((c : Thread nD τ).loc main_arg1) ↦{fullShare} W main_arg1)
        ∗ (((c : Thread nD τ).loc main_v5) ↦{fullShare} W main_v5) ∗ (((c : Thread nD τ).loc main_v6) ↦{fullShare} W main_v6)) := by
  unfold Pipeline.arrBufs
  exact bigSep_eq_bigSepL_of_eq [main_v0, main_v3, main_v4, main_arg1, main_v5, main_v6] (by decide) (by decide) _

/-- The pipeline's arrays, window by window, each at its share: the two windows on the bf16 copy of x at the two halves. -/
theorem arrays_chain (c : Dev nD) (G : (w : Fin cfg0.W) → Buf (Elt F) ((cfg0.win w).arr.view.loc (c : Thread nD τ))) :
    ((dat V c).arrays G : sProp 𝕄)
      = iprop((((c : Thread nD τ).loc main_v0) ↦{fullShare.left} G 0) ∗ (((c : Thread nD τ).loc main_v0) ↦{fullShare.right} G 1)
        ∗ (((c : Thread nD τ).loc main_v3) ↦{fullShare} G 2) ∗ (((c : Thread nD τ).loc main_v4) ↦{fullShare} G 3)
        ∗ (((c : Thread nD τ).loc main_arg1) ↦{fullShare} G 4) ∗ (((c : Thread nD τ).loc main_v5) ↦{fullShare} G 5)
        ∗ (((c : Thread nD τ).loc main_v6) ↦{fullShare} G 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY: a core's unscoped buffers at `V` are the pipeline's arrays at their shares and the unscoped rest. -/
theorem arrays_of_unscopedBufs (c : Dev nD) :
    (unscopedBufs c (V c) : sProp 𝕄) ⊢ iprop((dat V c).arrays (dat V c).A ∗ Pipeline.unscopedRest spec0 c (V c)) := by
  rw [Pipeline.unscopedBufs_split₀ cfgs (0 : Fin 1) winFacts₀0.arr_unscoped c (V c), arrBufs_chain, arrays_chain]
  iintro ⟨⟨H0, H3, H4, H1, H5, H6⟩, Hrest⟩
  ihave Hh := (pointsTo_share (PosShare.mem_left_op_right fullShare)).1 $$ H0
  icases Hh with ⟨Hl, Hr⟩
  isplitr [Hrest]
  · isplitl [Hl]; · iexact Hl
    isplitl [Hr]; · iexact Hr
    isplitl [H3]; · iexact H3
    isplitl [H4]; · iexact H4
    isplitl [H1]; · iexact H1
    isplitl [H5]; · iexact H5
    iexact H6
  · iexact Hrest

/-- EXIT: the arrays at contents `G` and the unscoped rest at `V` are the core's unscoped buffers at any `V'` that has
    the arrays at `G` (`hG`: in particular the two windows on the bf16 copy of x end at equal contents) and agrees
    with `V` off them. -/
theorem unscopedBufs_of_arrays (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V c b) :
    iprop((dat V c).arrays G ∗ Pipeline.unscopedRest spec0 c (V c)) ⊢ (unscopedBufs c V' : sProp 𝕄) := by
  rw [Pipeline.unscopedBufs_split₀ cfgs (0 : Fin 1) winFacts₀0.arr_unscoped c V', arrBufs_chain, arrays_chain,
    hG 0, hG 1, hG 2, hG 3, hG 4, hG 5, hG 6]
  have hr : (Pipeline.unscopedRest spec0 c V' : sProp 𝕄) = Pipeline.unscopedRest spec0 c (V c) := by
    unfold Pipeline.unscopedRest
    exact bigSep_congr fun b hb => by rw [hrest b (Finset.mem_sdiff.mp hb).2]
  rw [hr]
  iintro ⟨⟨Hl, Hr, H3, H4, H1, H5, H6⟩, Hrest⟩
  isplitr [Hrest]
  · isplitl [Hl Hr]
    · iapply (pointsTo_share (PosShare.mem_left_op_right fullShare)).2
      isplitl [Hl]; · iexact Hl
      iexact Hr
    isplitl [H3]; · iexact H3
    isplitl [H4]; · iexact H4
    isplitl [H1]; · iexact H1
    isplitl [H5]; · iexact H5
    iexact H6
  · iexact Hrest

end Shares

end Cert.KernelIdeal.Tri

end
-- ==== Proof.KI.Launch.lean ====
/-
  The run of @main: three segments.  The buffer contents at the segment boundaries are a fold from the launch
  memory: after the host operations before the region (`W1`: the region's entry), after the region (`W2`: the output
  array at what the write-backs leave, every other buffer as entered), after the host operations that follow it
  (`W3`).  The run ends with every unscoped buffer at `W3`.
-/
import proofs.«144779_j15917148799620_1_alg».proof.Proof.KI.Shares

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- The output array after the region: the fold of the write-backs. -/
abbrev outArr (c : Dev nD) : Buf (Elt F) ((c : Thread nD τ).loc main_v6) := (dat (V1 m ρ) c).arrAt 6 cfg0.N
/-- At the region's exit: the output array at what the pipeline leaves, every other buffer as entered. -/
def W2 (c : Dev nD) : Valuation τ sig (Elt F) := Function.update (W1 m ρ c) (Proc.devRef .tc main_v6) (outArr m ρ c)
theorem W2_out (c : Dev nD) : W2 m ρ c (Proc.devRef .tc main_v6) = outArr m ρ c := by
  unfold W2; exact Function.update_self _ _ _
theorem W2_of_ne (c : Dev nD) (b : Ref sig .tc) (hb : b ≠ main_v6) : W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
/-- At the exit each array holds what the pipeline leaves: an input array what it held at entry, the output its fold. -/
theorem hG (c : Dev nD) : ∀ w, (dat (V1 m ρ) c).arrAt w cfg0.N = V2 m ρ c (Pipeline.arrRef spec0 w) := fun
  | ⟨0, _⟩ => ((dat (V1 m ρ) c).arrAt_in 0 rfl _).trans ((A_eq (V1 m ρ) c 0).trans (W2_of_ne m ρ c main_v0 (by decide)).symm)
  | ⟨1, _⟩ => ((dat (V1 m ρ) c).arrAt_in 1 rfl _).trans ((A_eq (V1 m ρ) c 1).trans (W2_of_ne m ρ c main_v0 (by decide)).symm)
  | ⟨2, _⟩ => ((dat (V1 m ρ) c).arrAt_in 2 rfl _).trans ((A_eq (V1 m ρ) c 2).trans (W2_of_ne m ρ c main_v3 (by decide)).symm)
  | ⟨3, _⟩ => ((dat (V1 m ρ) c).arrAt_in 3 rfl _).trans ((A_eq (V1 m ρ) c 3).trans (W2_of_ne m ρ c main_v4 (by decide)).symm)
  | ⟨4, _⟩ => ((dat (V1 m ρ) c).arrAt_in 4 rfl _).trans ((A_eq (V1 m ρ) c 4).trans (W2_of_ne m ρ c main_arg1 (by decide)).symm)
  | ⟨5, _⟩ => ((dat (V1 m ρ) c).arrAt_in 5 rfl _).trans ((A_eq (V1 m ρ) c 5).trans (W2_of_ne m ρ c main_v5 (by decide)).symm)
  | ⟨6, _⟩ => (W2_out m ρ c).symm
theorem hrest (c : Dev nD) : ∀ b, b ∉ Finset.univ.image (Pipeline.arrRef spec0) → V2 m ρ c b = V1 m ρ c b :=
  fun b hb => W2_of_ne m ρ c b fun e => hb (Finset.mem_image.mpr ⟨6, Finset.mem_univ _, e.symm⟩)
/-- After the host operations that follow the region. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
/-- The pipeline's proof data at the region's entry contents — a literal `match`. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`.  Its arrays are split
    out of the unscoped buffers at their shares and put back at the exit contents; the generator register goes into the
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscopedBufs (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine BIBase.Entails.trans (hout (V1 m ρ) c) ?_
    unfold Pipeline.ΦA
    iintro ⟨Hr, Hp⟩
    isplitl [Hp]; · iexact Hp
    isplitr; · iempintro
    iexact Hr
  hexit c := by
    have hjoin := unscopedBufs_of_arrays (V1 m ρ) c (V2 m ρ c) ((dat (V1 m ρ) c).arrAt · cfg0.N) (hG m ρ c) (hrest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- At the compiled mesh, from any memory with zero counters: every weakly fair execution of @main terminates, nothing
    faulting, and every final state has every unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Tri

end
-- ==== Proof.KI.HostGlue.lean ====
/-
  The host operations around the region, at the extended reals.

  Before the region: x is converted to the narrower format (the identity here), squared and summed along each row
  from the zero word into the squared norms, which are laid out as a column [8192, 1] and as a row [1, 8192]; the
  labels are laid out as a row as well. After the region: the output column is summed from the zero word and divided
  by the word of 8192.
-/
import proofs.«144779_j15917148799620_1_alg».proof.Proof.KI.Launch
import proofs.«144779_j15917148799620_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tri

open Idealize.ShloMosaic Idealize.ShloMosaic.TcCoe Idealize.SL.Sem Idealize.ShloMosaic.ValueIdx Cert.KernelIdeal Cert.KernelIdeal.Gen Cert.TripletSpec

variable (m : (ℓ : Loc nD τ sig) → Buf (Elt Ideal) ℓ) (ρ : Dev nD → PrngReg)

/-- the rows of x and the labels, read off the launch memory of core c -/
def xs (c : Dev nD) : Fin 8192 → Fin 512 → EReal := fun r d => m ((c : Thread nD τ).loc main_arg0) (ix2 r d)
def ys (c : Dev nD) : Fin 8192 → BitVec 32 := fun r => m ((c : Thread nD τ).loc main_arg1) (ix2 r 0)

/-! ## Layout operations of the host at coordinates -/

section Layout
variable {α : Type}

/-- A column [a, 1] reshaped to the row [1, a] reads, at (u, i), the column at (i, 0), whatever the unit coordinate u. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A vector [8192] laid out as the column [8192, 1] reads, at (r, u), the vector at r. -/
theorem bcastCol_apply (y : S8192.Idx → α) (r : Fin 8192) (u : Fin 1) :
    broadcastInDim S8192x1 ![0] bcast_S8192_S8192x1_0 y (ix2 r u) = y (ix1 r) :=
  broadcastInDim_apply _ bcast_S8192_S8192x1_0 y (ix2 r u) (ix1 r) (fun a => match a with
    | ⟨0, _⟩ => by show r.val = if (8192 : Nat) = 1 then 0 else r.val; rw [if_neg (by decide)])

end Layout

/-- The host's sum of the squares along each row, from the zero word: at r the zero word plus the sum over d of
    X r d · X r d. -/
theorem rowSq_apply (X : FVec Ideal S8192x512 .f32) (r : Fin 8192) :
    Host.reduceAdd (F := Ideal) (mulf X X) (constant (F := Ideal) S_ .f32 0x00000000#32) reducesTo_S8192x512_S8192_d1 h_S_ (ix1 r)
      = zeroW + ∑ d : Fin 512, X (ix2 r d) * X (ix2 r d) := by
  simp only [Host.reduceAdd, Ideal.hostReduceAdd_def]
  rw [Ideal.hostReduceAdd_single reducesTo_S8192x512_S8192_d1 (by decide)]
  refine congrArg (_ + ·) (Finset.sum_congr rfl fun (k : Fin 512) _ => ?_)
  show mulf X X _ = mulf X X (ix2 r k)
  exact congrArg (mulf X X) (funext fun a => Fin.ext (by match a with | ⟨0, _⟩ => rfl | ⟨1, _⟩ => rfl))

/-! ## The region's entry contents -/

theorem V1_v0 (c : Dev nD) (r : Fin 8192) (d : Fin 512) : V1 m ρ c main_v0 (ix2 r d) = xs m c r d := by
  have e : @Eq (S8192x512.Idx → EReal) (V1 m ρ c main_v0)
      (truncf (F := Ideal) (φ := .f32) (s := S8192x512) .bf16 (m ((c : Thread nD τ).loc main_arg0)) bitsLt_bf16_f32) := by
    show StableHlo.after hostOps0 (W0 m ρ c) (Proc.devRef .tc main_v0) = _
    after_results
  exact congrFun e (ix2 r d)

/-- The squared norms as the host leaves them: the column's source. -/
def sqnVec (c : Dev nD) : FVec Ideal S8192 .f32 :=
  Host.reduceAdd (F := Ideal)
    (mulf (F := Ideal) (s := S8192x512) (φ := .f32) (m ((c : Thread nD τ).loc main_arg0)) (m ((c : Thread nD τ).loc main_arg0)))
    (constant (F := Ideal) S_ .f32 0x00000000#32) reducesTo_S8192x512_S8192_d1 h_S_

theorem sqnVec_apply (c : Dev nD) (r : Fin 8192) : sqnVec m c (ix1 r) = sqn (xs m c) r := by
  unfold sqnVec
  exact rowSq_apply _ r

theorem V1_v3_eq (c : Dev nD) : @Eq (S8192x1.Idx → EReal) (V1 m ρ c main_v3)
    (broadcastInDim S8192x1 ![0] bcast_S8192_S8192x1_0 (sqnVec m c)) := by
  show StableHlo.after hostOps0 (W0 m ρ c) (Proc.devRef .tc main_v3) = _
  after_results
  rfl

theorem V1_v3 (c : Dev nD) (r : Fin 8192) : V1 m ρ c main_v3 (ix2 r 0) = sqn (xs m c) r := by
  refine (congrFun (V1_v3_eq m ρ c) (ix2 r 0)).trans ?_
  rw [bcastCol_apply, sqnVec_apply]

theorem V1_v4 (c : Dev nD) (n : Fin 8192) : V1 m ρ c main_v4 (ix2 0 n) = sqn (xs m c) n := by
  have e : @Eq (S1x8192.Idx → EReal) (V1 m ρ c main_v4)
      (shapeCast S1x8192 (broadcastInDim S8192x1 ![0] bcast_S8192_S8192x1_0 (sqnVec m c)) shapeCasts_S8192x1_S1x8192) := by
    show StableHlo.after hostOps0 (W0 m ρ c) (Proc.devRef .tc main_v4) = _
    after_results
    rfl
  refine (congrFun e (ix2 0 n)).trans ?_
  rw [shapeCast_a1_1a_apply, bcastCol_apply, sqnVec_apply]

theorem V1_arg1 (c : Dev nD) (r : Fin 8192) : V1 m ρ c main_arg1 (ix2 r 0) = ys m c r := by
  have e : @Eq (S8192x1.Idx → BitVec 32) (V1 m ρ c main_arg1) (m ((c : Thread nD τ).loc main_arg1)) := by
    show StableHlo.after hostOps0 (W0 m ρ c) (Proc.devRef .tc main_arg1) = _
    after_results
  exact congrFun e (ix2 r 0)

theorem V1_v5 (c : Dev nD) (n : Fin 8192) : V1 m ρ c main_v5 (ix2 0 n) = ys m c n := by
  have e : @Eq (S1x8192.Idx → BitVec 32) (V1 m ρ c main_v5)
      (shapeCast S1x8192 (m ((c : Thread nD τ).loc main_arg1) : S8192x1.Idx → BitVec 32) shapeCasts_S8192x1_S1x8192) := by
    show StableHlo.after hostOps0 (W0 m ρ c) (Proc.devRef .tc main_v5) = _
    after_results
    rfl
  refine (congrFun e (ix2 0 n)).trans ?_
  rw [shapeCast_a1_1a_apply]
  rfl

/-! ## After the host operations that follow the region -/

/-- The host's sum of a column [8192, 1] over both axes, from the zero word: the zero word plus the sum over r of
    the column at (r, 0). -/
theorem colSum_apply (Y : FVec Ideal S8192x1 .f32) (i : S_.Idx) :
    Host.reduceAdd (F := Ideal) Y (constant (F := Ideal) S_ .f32 0x00000000#32) reducesTo_S8192x1_S_d0_1 h_S_ i
      = zeroW + ∑ r : Fin 8192, Y (ix2 r 0) := by
  simp only [Host.reduceAdd, Ideal.hostReduceAdd_def]
  refine (Ideal.hostReduceAdd_total reducesTo_S8192x1_S_d0_1 (fun b => b.elim0) Y _ i).trans ?_
  refine congrArg (_ + ·) ?_
  refine (sum_idx2 (n0 := 8192) (n1 := 1) Y).trans ?_
  exact Finset.sum_congr rfl fun r _ => Fin.sum_univ_one _

theorem W3_v8 (c : Dev nD) : W3 m ρ c (Proc.devRef .tc main_v8)
    = fun _ => Ideal.div (zeroW + (∑ r : Fin 8192, outArr m ρ c (ix2 r 0) : EReal)) nW := by
  have e : @Eq (S_.Idx → EReal) (W3 m ρ c (Proc.devRef .tc main_v8))
      (Host.divf (F := Ideal)
        (Host.reduceAdd (F := Ideal) (s := S8192x1) (φ := .f32) (outArr m ρ c) (constant (F := Ideal) S_ .f32 0x00000000#32) reducesTo_S8192x1_S_d0_1 h_S_)
        (constant (F := Ideal) S_ .f32 0x46000000#32)) := by
    show StableHlo.after hostOps1 (W2 m ρ c) (Proc.devRef .tc main_v8) = _
    after_results
    rw [W2_out]
  refine e.trans (funext fun i => ?_)
  show Ideal.div (Host.reduceAdd (F := Ideal) (s := S8192x1) (φ := .f32) (outArr m ρ c) (constant (F := Ideal) S_ .f32 0x00000000#32) reducesTo_S8192x1_S_d0_1 h_S_ i) nW = _
  rw [colSum_apply]

end Cert.KernelIdeal.Tri

end
-- ==== Proof.KI.Frame.lean ====
/-
  The frame: no host operation writes an argument and the region only reads them, so the fold of the boundary
  contents at an argument's buffer walks back to the launch memory, and the run ends with both arguments as launched.
-/
import proofs.«144779_j15917148799620_1_alg».proof.Proof.KI.Launch

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W3_arg0 m ρ c), (h c _ (mem_uc main_arg1 (by decide))).trans (W3_arg1 m ρ c)⟩)
    (run_main m ρ)

end Cert.KernelIdeal.Tri

end
-- ==== Proof.KI.Loss.lean ====
/-
  The idealized kernel's run, read: it ends with its result at the batch-hard triplet loss of the rows of its f32
  argument and the labels of its i32 argument, and with both arguments as launched.  The output array after the
  region is the per-anchor hinge array in the tiled arrangement; the host operations after the region sum it and divide
  by the batch size; and the tiled running extrema are the whole ones.
-/
import proofs.«144779_j15917148799620_1_alg».proof.Proof.KI.Fold
import proofs.«144779_j15917148799620_1_alg».proof.Proof.KI.HostGlue
import proofs.«144779_j15917148799620_1_alg».proof.Proof.KI.Frame

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.TripletSpec

variable (m : (ℓ : Loc nD τ sig) → Buf (Elt Ideal) ℓ) (ρ : Dev nD → PrngReg)

/-- What the region finds in its arrays: the host operations before it, read at an index. -/
theorem entry (c : Dev nD) : Entry (V1 m ρ) c (xs m c) (ys m c) :=
  ⟨V1_v0 m ρ c, V1_v3 m ρ c, V1_v4 m ρ c, V1_arg1 m ρ c, V1_v5 m ρ c⟩

/-- The hinge array at anchor r. -/
theorem hingeArr_apply (x : Fin 8192 → Fin 512 → EReal) (y : Fin 8192 → BitVec 32) (r : Fin 8192) :
    hingeArr x y (ix2 r 0) = hinge (runPos x y r) (runNeg x y r) := rfl

/-- The output array after the region, at anchor r: the hinge of the whole extrema. -/
theorem outArr_apply (c : Dev nD) (r : Fin 8192) :
    (outArr m ρ c (ix2 r 0) : EReal) = hinge (hardPos (xs m c) (ys m c) r) (hardNeg (xs m c) (ys m c) r) := by
  have h := congrFun (out_eq (entry m ρ c)) (ix2 r 0)
  refine h.trans ?_
  rw [hingeArr_apply, runPos_eq_hardPos, runNeg_eq_hardNeg]

/-- The result buffer at the last boundary is the loss. -/
theorem result_eq (c : Dev nD) : W3 m ρ c (Proc.devRef .tc main_v8) = fun _ => loss (xs m c) (ys m c) := by
  rw [W3_v8]
  have hs : (∑ r : Fin 8192, outArr m ρ c (ix2 r 0) : EReal)
      = ∑ r : Fin 8192, hinge (hardPos (xs m c) (ys m c) r) (hardNeg (xs m c) (ys m c) r) :=
    Finset.sum_congr rfl fun r _ => outArr_apply m ρ c r
  rw [hs]
  rfl

/-- The run, read. -/
theorem run_loss : θ_run (defs (F := Ideal)) (onTc (τ := τ) (main (F := Ideal))) ⟨m, fun _ => 0, ρ⟩ (fun r => ∀ c : Dev nD,
      r.2.mem ((c.tc : Thread nD τ).loc main_v8) = (fun _ => loss (xs m c) (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_v8 (by decide))).trans (result_eq m ρ c),
        (h c _ (mem_uc main_arg0 (by decide))).trans (W3_arg0 m ρ c),
        (h c _ (mem_uc main_arg1 (by decide))).trans (W3_arg1 m ρ c)⟩)
    (run_main m ρ)

end Cert.KernelIdeal.Tri

end
-- ==== Proof.RefValue.lean ====
/-
  The reference program's result, read as the batch-hard triplet loss of its two arguments.

  The result buffer is a scalar: the sum over the 8192 anchors r of max(hardPos r + 1 − hardNeg r, 0), from the zero
  word, divided by the word of 8192.  Each stage is read at an index: the row sum of squares at r is ‖x r‖²; the floored
  squared distance at (r, n) is max(‖x r‖² + ‖x n‖² − 2·⟨x r, x n⟩, 0), the inner product being the contraction of x with
  its transpose; the label comparison at (r, n) is the bit of y r = y n; the two selects at (r, n) are the candidates of
  the maximum and of the minimum.  A reduction over the second axis of a square array, from an initial word, is at r the
  fold of its body over the 8192 columns of row r from that word: the index r with column k put back is (r, k).  The last
  sum runs over the rank-1 indices, which are the anchors.
-/
import proofs.«144779_j15917148799620_1_alg».proof.Proof.Gen.ReferenceIdeal.Read
import proofs.«144779_j15917148799620_1_alg».proof.Proof.Gen.ReferenceIdeal.Run
import proofs.«144779_j15917148799620_1_alg».proof.Proof.Spec
import Idealize.ShloMosaic.Lib.ValueIdxRank1
import Idealize.ShloMosaic.PureOps.Reduce

noncomputable section

namespace Cert.ReferenceIdeal.RefValue

open Idealize.ShloMosaic Idealize.ShloMosaic.TcCoe Idealize.SL.Sem Idealize.ShloMosaic.ValueIdx Cert.ReferenceIdeal
open Cert.ReferenceIdeal.Gen Idealize.ShloMosaic.StableHlo

/-- the rows of the f32 argument and the labels of the i32 argument -/
def rowsOf (a0 : (⟨S8192x512, .f32⟩ : BufTy).Contents (Elt Ideal)) : Fin 8192 → Fin 512 → EReal := fun r d => a0 (ix2 r d)
def labelsOf (a1 : (⟨S8192x1, .i32⟩ : BufTy).Contents (Elt Ideal)) : Fin 8192 → BitVec 32 := fun r => a1 (ix2 r 0)

variable (a0 : (⟨S8192x512, .f32⟩ : BufTy).Contents (Elt Ideal)) (a1 : (⟨S8192x1, .i32⟩ : BufTy).Contents (Elt Ideal))

/-! ## The pointwise stages at an index -/

/-- The row sum of squares at r is the squared norm of row r. -/
theorem sqnorm_at (r : Fin 8192) : Read.val_main_v2 (F := Ideal) a0 (ix1 r) = TripletSpec.sqn (rowsOf a0) r := by
  rw [Read.val_main_v2_apply, Read.val_main_cst_apply]
  have e : ∀ k : Fin 512, Read.idx_main_v2 (ix1 r) k = ix2 r k := fun k =>
    funext fun a => Fin.ext (by match a with | ⟨0, _⟩ => rfl | ⟨1, _⟩ => rfl)
  simp only [Read.val_main_v1_apply, Ideal.mulf_def, Ideal.ofBits_def, e]
  rfl

/-- The floored squared distance at (r, n). -/
theorem dist_at (r n : Fin 8192) : Read.val_main_v14 (F := Ideal) a0 (ix2 r n) = TripletSpec.dist (rowsOf a0) r n := by
  have e5 : Read.idx_main_v3 (Read.idx_main_v5 (ix2 r n)) = ix1 r :=
    funext fun a => Fin.ext (by match a with | ⟨0, _⟩ => rfl)
  have e6 : Read.idx_main_v4 (Read.idx_main_v6 (ix2 r n)) = ix1 n :=
    funext fun a => Fin.ext (by match a with | ⟨0, _⟩ => rfl)
  have el : ∀ k : Fin 512, Read.lidx_main_v9 (ix2 r n) k = ix2 r k := fun k =>
    funext fun a => Fin.ext (by match a with | ⟨0, _⟩ => rfl | ⟨1, _⟩ => rfl)
  have er : ∀ k : Fin 512, Read.idx_main_v8 (Read.ridx_main_v9 (ix2 r n) k) = ix2 n k := fun k =>
    funext fun a => Fin.ext (by match a with | ⟨0, _⟩ => rfl | ⟨1, _⟩ => rfl)
  rw [Read.val_main_v14_apply, Read.val_main_v12_apply, Read.val_main_v7_apply, Read.val_main_v5_apply,
    Read.val_main_v3_apply, Read.val_main_v6_apply, Read.val_main_v4_apply, Read.val_main_v11_apply,
    Read.val_main_v10_apply, Read.val_main_cst_0_apply, Read.val_main_v9_apply, Read.val_main_v13_apply,
    Read.val_main_cst_1_apply, e5, e6, sqnorm_at, sqnorm_at]
  simp only [Read.val_main_v8_apply, el, er, Ideal.maximumf_def, Ideal.subf_def, Ideal.addf_def, Ideal.mulf_def,
    Ideal.ofBits_def]
  rfl

/-- The label comparison at (r, n). -/
theorem same_at (r n : Fin 8192) : Read.val_main_v19 (F := Ideal) a1 (ix2 r n) = TripletSpec.same (labelsOf a1) r n := by
  have e17 : Read.idx_main_v0 (Read.idx_main_v15 (Read.idx_main_v17 (ix2 r n))) = ix2 r (0 : Fin 1) :=
    funext fun a => Fin.ext (by match a with | ⟨0, _⟩ => exact Nat.div_one _ | ⟨1, _⟩ => rfl)
  have e18 : Read.idx_main_v0 (Read.idx_main_v16 (Read.idx_main_v18 (ix2 r n))) = ix2 n (0 : Fin 1) :=
    funext fun a => Fin.ext (by match a with | ⟨0, _⟩ => exact Nat.div_one _ | ⟨1, _⟩ => rfl)
  rw [Read.val_main_v19_apply, Read.val_main_v17_apply, Read.val_main_v15_apply, Read.val_main_v0_apply,
    Read.val_main_v18_apply, Read.val_main_v16_apply, Read.val_main_v0_apply, e17, e18]
  rfl

/-- The maximum's candidate and the minimum's candidate at (r, n). -/
theorem posCand_at (r n : Fin 8192) :
    Read.val_main_v20 (F := Ideal) a0 a1 (ix2 r n) = TripletSpec.posCand (rowsOf a0) (labelsOf a1) r n := by
  rw [Read.val_main_v20_apply, same_at, dist_at, Read.val_main_call0_v0_apply, Read.val_main_cst_2_apply]
  rfl

theorem negCand_at (r n : Fin 8192) :
    Read.val_main_v22 (F := Ideal) a0 a1 (ix2 r n) = TripletSpec.negCand (rowsOf a0) (labelsOf a1) r n := by
  rw [Read.val_main_v22_apply, same_at, dist_at, Read.val_main_call1_v0_apply, Read.val_main_cst_4_apply]
  rfl

/-! ## The two reductions over the columns -/

/-- Reducing a square array over its second axis keeps the row. -/
theorem reduces_cols : S8192x8192.Reduces [1] S8192 := by decide

/-- The kept index r with column k put back is (r, k). -/
theorem lift_cols (r : Fin 8192) (k : Fin (S8192x8192.size 1)) :
    reduces_cols.lift (ix1 r) k = ix2 r (⟨k.val, k.isLt⟩ : Fin 8192) := by
  funext c; apply Fin.ext
  match c with
  | ⟨0, _⟩ => rfl
  | ⟨1, _⟩ => rfl

/-- The reduce-max over the columns, from the word of −∞, is the whole maximum of the candidates of row r. -/
theorem hardPos_at (r : Fin 8192) :
    Read.val_main_v21 (F := Ideal) a0 a1 (ix1 r) = TripletSpec.hardPos (rowsOf a0) (labelsOf a1) r := by
  unfold Read.val_main_v21
  rw [Host.reduce_eq_fold_single FloatOps.maximumf _ _ reducesTo_S8192x8192_S8192_d1 reduces_cols h_S_]
  have hf : (Read.val_main_v20 (F := Ideal) a0 a1 ∘ reduces_cols.lift (ix1 r))
      = fun n : Fin 8192 => TripletSpec.posCand (rowsOf a0) (labelsOf a1) r n :=
    funext fun k => (congrArg _ (lift_cols r k)).trans (posCand_at a0 a1 r _)
  rw [hf]
  rfl

/-- The reduce-min over the columns, from the word of +∞, is the whole minimum of the candidates of row r. -/
theorem hardNeg_at (r : Fin 8192) :
    Read.val_main_v23 (F := Ideal) a0 a1 (ix1 r) = TripletSpec.hardNeg (rowsOf a0) (labelsOf a1) r := by
  unfold Read.val_main_v23
  rw [Host.reduce_eq_fold_single FloatOps.minimumf _ _ reducesTo_S8192x8192_S8192_d1 reduces_cols h_S_]
  have hf : (Read.val_main_v22 (F := Ideal) a0 a1 ∘ reduces_cols.lift (ix1 r))
      = fun n : Fin 8192 => TripletSpec.negCand (rowsOf a0) (labelsOf a1) r n :=
    funext fun k => (congrArg _ (lift_cols r k)).trans (negCand_at a0 a1 r _)
  rw [hf]
  rfl

/-! ## The hinge and the mean -/

/-- The per-anchor hinge at r. -/
theorem hinge_at (r : Fin 8192) :
    Read.val_main_v27 (F := Ideal) a0 a1 (ix1 r)
      = TripletSpec.hinge (TripletSpec.hardPos (rowsOf a0) (labelsOf a1) r) (TripletSpec.hardNeg (rowsOf a0) (labelsOf a1) r) := by
  rw [Read.val_main_v27_apply, Read.val_main_v26_apply, Read.val_main_v25_apply, hardPos_at, hardNeg_at,
    Read.val_main_v24_apply, Read.val_main_cst_6_apply, Read.val_main_call2_v0_apply, Read.val_main_call2_cst_apply]
  rfl

/-- The reference's result is the loss of the rows and the labels. -/
theorem result_eq_loss :
    Read.val_main_v29 (F := Ideal) a0 a1 = fun _ => TripletSpec.loss (rowsOf a0) (labelsOf a1) := by
  funext i
  rw [Read.val_main_v29_apply, Read.val_main_v28_apply, Read.val_main_cst_7_apply, Read.val_main_cst_8_apply,
    ← Equiv.sum_comp (idxEquiv1 (n := 8192)).symm]
  simp only [Ideal.hostDivf_def, Ideal.ofBits_def]
  have hs : ∀ r : Fin 8192, Read.val_main_v27 (F := Ideal) a0 a1 ((idxEquiv1 (n := 8192)).symm r)
      = TripletSpec.hinge (TripletSpec.hardPos (rowsOf a0) (labelsOf a1) r) (TripletSpec.hardNeg (rowsOf a0) (labelsOf a1) r) :=
    fun r => hinge_at a0 a1 r
  simp only [hs]
  rfl

/-! ## The run -/

/-- Every weakly fair execution of the reference terminates with the result buffer holding the loss of the first
    argument's rows and the second argument's labels, and with both arguments unchanged. -/
theorem run_loss (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v29) = (fun _ => Cert.TripletSpec.loss (rowsOf (m ((c.tc : Thread nD τ).loc main_arg0))) (labelsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (Cert.ReferenceIdeal.defs (F := Ideal)) _ _).mono
    (fun _ h c => ⟨(h c).1.trans ((Read.val_main_v29_eq _ _).trans (result_eq_loss _ _)), (h c).2⟩)
    (Cert.ReferenceIdeal.Value.run (F := Ideal) m ρ)

end Cert.ReferenceIdeal.RefValue

end
-- ==== Proof.lean ====
/-
  The certificate of the batch-hard triplet loss kernel against its jnp reference.

  The kernel tiles the 8192 × 8192 matrix of floored squared distances  max(‖xᵣ‖² + ‖xₙ‖² − 2⟨xᵣ, xₙ⟩, 0)  into 16 × 4
  blocks of 512 × 2048, never storing it: per anchor it keeps a running maximum over the same-label columns and a
  running minimum over the other columns, both started at a finite fill (∓1e30) on the first column tile and folded
  with each tile's row extremum; on the last column tile it stores max(m⁺ + 1 − m⁻, 0), and the host sums the 8192
  hinges and divides by 8192.  The reference takes each extremum over all 8192 columns at once.  At the extended
  reals the two agree: a change of float format is the identity (so the bf16 copy of x is x), a product into a zero
  accumulator is the sum over the contracted axis, and the fold from the fill is the fold from ∓∞ because every
  candidate of the maximum is at least the fill (a floored distance is ≥ 0) and the anchor's own column makes the
  minimum at most the fill.  No finiteness of x is used.

  Frames: the pipeline reads one array (the bf16 copy of x) through two windows, at the two halves of its share; the
  two scratch columns are carried from point to point; the output block is stored only on a row's last column tile.
-/
import proofs.«144779_j15917148799620_1_alg».proof.Defs
import proofs.«144779_j15917148799620_1_alg».proof.Proof.Gen.Kernel
import proofs.«144779_j15917148799620_1_alg».proof.Proof.Gen.KernelIdeal
import proofs.«144779_j15917148799620_1_alg».proof.Proof.Gen.ReferenceIdeal
import proofs.«144779_j15917148799620_1_alg».proof.Proof.Gen.Pre_finite_inputs
import proofs.«144779_j15917148799620_1_alg».proof.Proof.K.Frame
import proofs.«144779_j15917148799620_1_alg».proof.Proof.KI.Loss
import proofs.«144779_j15917148799620_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Tri.frame m ρ

theorem frame_ki : Cert.frame_KernelIdeal (hKernelIdeal := Cert.KernelIdeal.Gen.facts) (hPre_finite_inputs := Cert.Pre_finite_inputs.Gen.facts) :=
  fun m ρ _ => Cert.KernelIdeal.Tri.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the loss of the same rows and labels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.TripletSpec.loss (Cert.KernelIdeal.Tri.xs m c) (Cert.KernelIdeal.Tri.ys m c),
    Cert.KernelIdeal.Tri.run_loss m ρ, ?_⟩
  refine (θ_run Cert.ReferenceIdeal.defs _ _).mono (fun _ h c => ⟨(h c).1.trans ?_, (h c).2⟩)
    (Cert.ReferenceIdeal.RefValue.run_loss m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
